-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x128 : Shape := ⟨2, ![64, 128]⟩
abbrev S32000x256 : Shape := ⟨2, ![32000, 256]⟩
abbrev S768x256 : Shape := ⟨2, ![768, 256]⟩
abbrev S768 : Shape := ⟨1, ![768]⟩
abbrev S32000 : Shape := ⟨1, ![32000]⟩
abbrev S_ : Shape := ⟨0, ![]⟩

class Facts : Prop where
  bcast_S_S32000x256 : S_.BroadcastsInDim S32000x256 (![] : Fin 0 → Fin S32000x256.rank)
  reducesTo_S32000x256_S_d0_1 : S32000x256.ReducesTo [0, 1] S_
  h_S_ : 0 < S_.numel
  bcast_S_S768x256 : S_.BroadcastsInDim S768x256 (![] : Fin 0 → Fin S768x256.rank)
  reducesTo_S768x256_S_d0_1 : S768x256.ReducesTo [0, 1] S_
  bcast_S_S768 : S_.BroadcastsInDim S768 (![] : Fin 0 → Fin S768.rank)
  reducesTo_S768_S_d0 : S768.ReducesTo [0] S_
  bcast_S_S32000 : S_.BroadcastsInDim S32000 (![] : Fin 0 → Fin S32000.rank)
  reducesTo_S32000_S_d0 : S32000.ReducesTo [0] S_

variable [Facts]

def fn_part1 {F : FTy → Type} [FloatOps F] (main_arg5 : FVec F S32000x256 .f32) (main_arg6 : FVec F S32000 .f32) (main_v13 : IVec S_ 1) (main_v16 : IVec S768 1) : IVec S_ 1 :=
  let main_c_5 : IVec S_ 1 := constantI S_ 1 1#1
  let main_v17 : IVec S_ 1 := (fun x v => Host.reduce IntOp.andi x v reducesTo_S768_S_d0 h_S_) main_v16 main_c_5
  let main_v18 : IVec S_ 1 := andi main_v13 main_v17
  let main_v19 : FVec F S32000x256 .f32 := Host.absf main_arg5
  let main_cst_6 : FVec F S_ .f32 := constant S_ .f32 0x7F800000#32
  let main_v20 : FVec F S32000x256 .f32 := broadcastInDim S32000x256 ![] bcast_S_S32000x256 main_cst_6
  let main_v21 : IVec S32000x256 1 := cmpf .olt main_v19 main_v20
  let main_c_7 : IVec S_ 1 := constantI S_ 1 1#1
  let main_v22 : IVec S_ 1 := (fun x v => Host.reduce IntOp.andi x v reducesTo_S32000x256_S_d0_1 h_S_) main_v21 main_c_7
  let main_v23 : IVec S_ 1 := andi main_v18 main_v22
  let main_v24 : FVec F S32000 .f32 := Host.absf main_arg6
  let main_cst_8 : FVec F S_ .f32 := constant S_ .f32 0x7F800000#32
  let main_v25 : FVec F S32000 .f32 := broadcastInDim S32000 ![] bcast_S_S32000 main_cst_8
  let main_v26 : IVec S32000 1 := cmpf .olt main_v24 main_v25
  let main_c_9 : IVec S_ 1 := constantI S_ 1 1#1
  let main_v27 : IVec S_ 1 := (fun x v => Host.reduce IntOp.andi x v reducesTo_S32000_S_d0 h_S_) main_v26 main_c_9
  let main_v28 : IVec S_ 1 := andi main_v23 main_v27
  main_v28

def fn {F : FTy → Type} [FloatOps F] (main_arg0 : IVec S64x128 32) (main_arg1 : FVec F S32000x256 .f32) (main_arg2 : FVec F S768x256 .f32) (main_arg3 : FVec F S768 .f32) (main_arg4 : FVec F S768 .f32) (main_arg5 : FVec F S32000x256 .f32) (main_arg6 : FVec F S32000 .f32) : IVec S_ 1 :=
  let main_v0 : FVec F S32000x256 .f32 := Host.absf main_arg1
  let main_cst : FVec F S_ .f32 := constant S_ .f32 0x7F800000#32
  let main_v1 : FVec F S32000x256 .f32 := broadcastInDim S32000x256 ![] bcast_S_S32000x256 main_cst
  let main_v2 : IVec S32000x256 1 := cmpf .olt main_v0 main_v1
  let main_c : IVec S_ 1 := constantI S_ 1 1#1
  let main_v3 : IVec S_ 1 := (fun x v => Host.reduce IntOp.andi x v reducesTo_S32000x256_S_d0_1 h_S_) main_v2 main_c
  let main_v4 : FVec F S768x256 .f32 := Host.absf main_arg2
  let main_cst_0 : FVec F S_ .f32 := constant S_ .f32 0x7F800000#32
  let main_v5 : FVec F S768x256 .f32 := broadcastInDim S768x256 ![] bcast_S_S768x256 main_cst_0
  let main_v6 : IVec S768x256 1 := cmpf .olt main_v4 main_v5
  let main_c_1 : IVec S_ 1 := constantI S_ 1 1#1
  let main_v7 : IVec S_ 1 := (fun x v => Host.reduce IntOp.andi x v reducesTo_S768x256_S_d0_1 h_S_) main_v6 main_c_1
  let main_v8 : IVec S_ 1 := andi main_v3 main_v7
  let main_v9 : FVec F S768 .f32 := Host.absf main_arg3
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  let main_v14 : FVec F S768 .f32 := Host.absf main_arg4
  let main_cst_4 : FVec F S_ .f32 := constant S_ .f32 0x7F800000#32
  let main_v15 : FVec F S768 .f32 := broadcastInDim S768 ![] bcast_S_S768 main_cst_4
  let main_v16 : IVec S768 1 := cmpf .olt main_v14 main_v15
  fn_part1 (F := F) main_arg5 main_arg6 main_v13 main_v16
-- ==== Kernel.lean ====
abbrev S64x128 : Shape := ⟨2, ![64, 128]⟩
abbrev S32000x256 : Shape := ⟨2, ![32000, 256]⟩
abbrev S768x256 : Shape := ⟨2, ![768, 256]⟩
abbrev S768 : Shape := ⟨1, ![768]⟩
abbrev S32000 : Shape := ⟨1, ![32000]⟩
abbrev S_ : Shape := ⟨0, ![]⟩
abbrev S64x128x1 : Shape := ⟨3, ![64, 128, 1]⟩
abbrev S64x128x256 : Shape := ⟨3, ![64, 128, 256]⟩
abbrev S8192x256 : Shape := ⟨2, ![8192, 256]⟩
abbrev S256x768 : Shape := ⟨2, ![256, 768]⟩
abbrev S256x32000 : Shape := ⟨2, ![256, 32000]⟩
abbrev S1x32000 : Shape := ⟨2, ![1, 32000]⟩
abbrev S1024x256 : Shape := ⟨2, ![1024, 256]⟩
abbrev S1024x768 : Shape := ⟨2, ![1024, 768]⟩
abbrev S1x768 : Shape := ⟨2, ![1, 768]⟩
abbrev S256 : Shape := ⟨1, ![256]⟩
abbrev S1x256 : Shape := ⟨2, ![1, 256]⟩
abbrev S8192x32000 : Shape := ⟨2, ![8192, 32000]⟩
abbrev S512x256 : Shape := ⟨2, ![512, 256]⟩
abbrev S256x3200 : Shape := ⟨2, ![256, 3200]⟩
abbrev S1x3200 : Shape := ⟨2, ![1, 3200]⟩
abbrev S512x3200 : Shape := ⟨2, ![512, 3200]⟩
abbrev S64x128x32000 : Shape := ⟨3, ![64, 128, 32000]⟩

abbrev nBuf : Space → Nat
  | .hbm => 25
  | .vmem => 15
  | .smem => 0
  | _ => 0

abbrev bufTy : (tb : Table) → Fin (tcTables nBuf tb) → BufTy
  | .hbm, ⟨0, _⟩ => ⟨S64x128, .i32⟩
  | .hbm, ⟨1, _⟩ => ⟨S32000x256, .f32⟩
  | .hbm, ⟨2, _⟩ => ⟨S768x256, .f32⟩
  | .hbm, ⟨3, _⟩ => ⟨S768, .f32⟩
  | .hbm, ⟨4, _⟩ => ⟨S768, .f32⟩
  | .hbm, ⟨5, _⟩ => ⟨S32000x256, .f32⟩
  | .hbm, ⟨6, _⟩ => ⟨S32000, .f32⟩
  | .hbm, ⟨7, _⟩ => ⟨S_, .i32⟩
  | .hbm, ⟨8, _⟩ => ⟨S64x128, .i32⟩
  | .hbm, ⟨9, _⟩ => ⟨S64x128, .i1⟩
  | .hbm, ⟨10, _⟩ => ⟨S_, .i32⟩
  | .hbm, ⟨11, _⟩ => ⟨S64x128, .i32⟩
  | .hbm, ⟨12, _⟩ => ⟨S64x128, .i32⟩
  | .hbm, ⟨13, _⟩ => ⟨S64x128, .i32⟩
  | .hbm, ⟨14, _⟩ => ⟨S64x128x1, .i32⟩
  | .hbm, ⟨15, _⟩ => ⟨S64x128x256, .f32⟩
  | .hbm, ⟨16, _⟩ => ⟨S8192x256, .f32⟩
  | .hbm, ⟨17, _⟩ => ⟨S256x768, .f32⟩
  | .hbm, ⟨18, _⟩ => ⟨S256x768, .bf16⟩
  | .hbm, ⟨19, _⟩ => ⟨S256x32000, .f32⟩
  | .hbm, ⟨20, _⟩ => ⟨S256x32000, .bf16⟩
  | .hbm, ⟨21, _⟩ => ⟨S1x32000, .f32⟩
  | .hbm, ⟨22, _⟩ => ⟨S8192x256, .bf16⟩
  | .hbm, ⟨23, _⟩ => ⟨S8192x32000, .f32⟩
  | .hbm, ⟨24, _⟩ => ⟨S64x128x32000, .f32⟩
  | .local _ .vmem, ⟨0, _⟩ => ⟨S1024x256, .f32⟩
  | .local _ .vmem, ⟨1, _⟩ => ⟨S1024x256, .f32⟩
  | .local _ .vmem, ⟨2, _⟩ => ⟨S256x768, .bf16⟩
  | .local _ .vmem, ⟨3, _⟩ => ⟨S768, .f32⟩
  | .local _ .vmem, ⟨4, _⟩ => ⟨S768, .f32⟩
  | .local _ .vmem, ⟨5, _⟩ => ⟨S1024x256, .bf16⟩
  | .local _ .vmem, ⟨6, _⟩ => ⟨S1024x256, .bf16⟩
  | .local _ .vmem, ⟨7, _⟩ => ⟨S512x256, .bf16⟩
  | .local _ .vmem, ⟨8, _⟩ => ⟨S512x256, .bf16⟩
  | .local _ .vmem, ⟨9, _⟩ => ⟨S256x3200, .bf16⟩
  | .local _ .vmem, ⟨10, _⟩ => ⟨S256x3200, .bf16⟩
  | .local _ .vmem, ⟨11, _⟩ => ⟨S1x3200, .f32⟩
  | .local _ .vmem, ⟨12, _⟩ => ⟨S1x3200, .f32⟩
  | .local _ .vmem, ⟨13, _⟩ => ⟨S512x3200, .f32⟩
  | .local _ .vmem, ⟨14, _⟩ => ⟨S512x3200, .f32⟩
  | _, _ => ⟨S64x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![16, 10], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S256x3200 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x3200 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S512x3200 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  bcast_S_S64x128 : S_.BroadcastsInDim S64x128 (![] : Fin 0 → Fin S64x128.rank)
  bcast_S64x128_S64x128x1_0_1 : S64x128.BroadcastsInDim S64x128x1 (![0, 1] : Fin 2 → Fin S64x128x1.rank)
  shapeCasts_S64x128x256_S8192x256 : S64x128x256.ShapeCasts S8192x256
  transposes_S768x256_S256x768_1_0 : S768x256.Transposes [1, 0] S256x768
  bitsLt_bf16_f32 : FTy.bits .bf16 < FTy.bits .f32
  transposes_S32000x256_S256x32000_1_0 : S32000x256.Transposes [1, 0] S256x32000
  shapeCasts_S32000_S1x32000 : S32000.ShapeCasts S1x32000
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S256x768_S256x768_0_0 : ∀ a, (![0, 0] : Fin 2 → Nat) a + S256x768.size a ≤ S256x768.size a
  h_S256x768 : 0 < S256x768.numel
  shapeCasts_S256x768_S256x768 : S256x768.ShapeCasts S256x768
  inb_S768_S768_0 : ∀ a, (![0] : Fin 1 → Nat) a + S768.size a ≤ S768.size a
  h_S768 : 0 < S768.numel
  shapeCasts_S768_S1x768 : S768.ShapeCasts S1x768
  broadcasts_S1x768_S1024x768 : S1x768.Broadcasts S1024x768
  slices_S1024x768_o0_0_S1024x256 : S1024x768.Slices ![0, 0] S1024x256
  slices_S1024x768_o0_256_S1024x256 : S1024x768.Slices ![0, 256] S1024x256
  slices_S1024x768_o0_512_S1024x256 : S1024x768.Slices ![0, 512] S1024x256
  slices_S768_o0_S256 : S768.Slices ![0] S256
  slices_S768_o256_S256 : S768.Slices ![256] S256
  slices_S768_o512_S256 : S768.Slices ![512] S256
  shapeCasts_S256_S1x256 : S256.ShapeCasts S1x256
  broadcasts_S1x256_S1024x256 : S1x256.Broadcasts S1024x256
  packedbf16_S1024x256_S1024x256_0_0 : (Rect.unit (s := S1024x256) ![0, 0] S1024x256.size inb_S1024x256_S1024x256_0_0).PackedRows (EltTy.packing .bf16)
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S256x3200_S256x3200_0_0 : ∀ a, (![0, 0] : Fin 2 → Nat) a + S256x3200.size a ≤ S256x3200.size a
  h_S256x3200 : 0 < S256x3200.numel
  shapeCasts_S256x3200_S256x3200 : S256x3200.ShapeCasts S256x3200
  inb_S1x3200_S1x3200_0_0 : ∀ a, (![0, 0] : Fin 2 → Nat) a + S1x3200.size a ≤ S1x3200.size a
  h_S1x3200 : 0 < S1x3200.numel
  shapeCasts_S1x3200_S1x3200 : S1x3200.ShapeCasts S1x3200
  broadcasts_S1x3200_S512x3200 : S1x3200.Broadcasts S512x3200
  inb_S512x3200_S512x3200_0_0 : ∀ a, (![0, 0] : Fin 2 → Nat) a + S512x3200.size a ≤ S512x3200.size a
  h_S512x3200 : 0 < S512x3200.numel
  shapeCasts_S8192x32000_S64x128x32000 : S8192x32000.ShapeCasts S64x128x32000
  gather_S32000x256_S64x128x1_S64x128x256_2_0_n_n_0_2_1256_wf : GatherDims.WF S32000x256 S64x128x1 S64x128x256 [2] [0] [] [0] [] 2 ![1, 256]
  dot_S1024x256_S256x768_S1024x768_1_0_0_1_n_n_wf : DotDims.WF S1024x256 S256x768 S1024x768 [1] [0] [0] [1] [] []
  dot_S512x256_S256x3200_S512x3200_1_0_0_1_n_n_wf : DotDims.WF S512x256 S256x3200 S512x3200 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x768.size a ≤ S256x768.size a
  hwx0_1 : ∀ i : grid0.Coords, EltTy.bits .bf16 = 32 ∨ (Rect.block (s := S256x768) S256x768.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768.size a ≤ S768.size a
  hwx0_2 : ∀ i : grid0.Coords, EltTy.bits .f32 = 32 ∨ (Rect.block (s := S768) S768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768.size a ≤ S768.size a
  hwx0_3 : ∀ i : grid0.Coords, EltTy.bits .f32 = 32 ∨ (Rect.block (s := S768) S768.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x256.size a ≤ S8192x256.size a
  hwx0_4 : ∀ i : grid0.Coords, EltTy.bits .bf16 = 32 ∨ (Rect.block (s := S8192x256) S1024x256.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x256.size a ≤ S8192x256.size a
  hwx1_0 : ∀ i : grid1.Coords, EltTy.bits .bf16 = 32 ∨ (Rect.block (s := S8192x256) S512x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x3200.size a ≤ S256x32000.size a
  hwx1_1 : ∀ i : grid1.Coords, EltTy.bits .bf16 = 32 ∨ (Rect.block (s := S256x32000) S256x3200.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x3200.size a ≤ S1x32000.size a
  hwx1_2 : ∀ i : grid1.Coords, EltTy.bits .f32 = 32 ∨ (Rect.block (s := S1x32000) S1x3200.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x3200.size a ≤ S8192x32000.size a
  hwx1_3 : ∀ i : grid1.Coords, EltTy.bits .f32 = 32 ∨ (Rect.block (s := S8192x32000) S512x3200.size (cc1_transform_3 i) (hinb1_3 i)).WholeWords (EltTy.packing .f32)

variable [Facts₀]

def gather_S32000x256_S64x128x1_S64x128x256_2_0_n_n_0_2_1256 : GatherDims S32000x256 S64x128x1 S64x128x256 where
  offsetDims := [2]
  collapsedSliceDims := [0]
  operandBatchingDims := []
  startIndicesBatchingDims := []
  startIndexMap := [0]
  indexVectorDim := 2
  sliceSizes := ![1, 256]
  wf := gather_S32000x256_S64x128x1_S64x128x256_2_0_n_n_0_2_1256_wf
def dot_S1024x256_S256x768_S1024x768_1_0_0_1_n_n : DotDims S1024x256 S256x768 S1024x768 where
  lhsContracting := [1]
  rhsContracting := [0]
  lhsNonContracting := [0]
  rhsNonContracting := [1]
  lhsBatch := []
  rhsBatch := []
  wf := dot_S1024x256_S256x768_S1024x768_1_0_0_1_n_n_wf
def dot_S512x256_S256x3200_S512x3200_1_0_0_1_n_n : DotDims S512x256 S256x3200 S512x3200 where
  lhsContracting := [1]
  rhsContracting := [0]
  lhsNonContracting := [0]
  rhsNonContracting := [1]
  lhsBatch := []
  rhsBatch := []
  wf := dot_S512x256_S256x3200_S512x3200_1_0_0_1_n_n_wf

abbrev win0_0 : Pipeline.Window sig grid0 :=
  Pipeline.Window.ofSpec (Memref.whole main_v7) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S256x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S1024x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v13) S512x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S256x3200.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S1x3200.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v14) S512x3200.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S64x128 : Shape := ⟨2, ![64, 128]⟩
abbrev S32000x256 : Shape := ⟨2, ![32000, 256]⟩
abbrev S768x256 : Shape := ⟨2, ![768, 256]⟩
abbrev S768 : Shape := ⟨1, ![768]⟩
abbrev S32000 : Shape := ⟨1, ![32000]⟩
abbrev S_ : Shape := ⟨0, ![]⟩
abbrev S64x128x1 : Shape := ⟨3, ![64, 128, 1]⟩
abbrev S64x128x256 : Shape := ⟨3, ![64, 128, 256]⟩
abbrev S64x128x768 : Shape := ⟨3, ![64, 128, 768]⟩
abbrev S1x1x768 : Shape := ⟨3, ![1, 1, 768]⟩
abbrev S256 : Shape := ⟨1, ![256]⟩
abbrev S1x1x256 : Shape := ⟨3, ![1, 1, 256]⟩
abbrev S64x128x32000 : Shape := ⟨3, ![64, 128, 32000]⟩
abbrev S1x1x32000 : Shape := ⟨3, ![1, 1, 32000]⟩

abbrev nBuf : Space → Nat
  | .hbm => 61
  | .vmem => 0
  | .smem => 0
  | _ => 0

abbrev bufTy : (tb : Table) → Fin (tcTables nBuf tb) → BufTy
  | .hbm, ⟨0, _⟩ => ⟨S64x128, .i32⟩
  | .hbm, ⟨1, _⟩ => ⟨S32000x256, .f32⟩
  | .hbm, ⟨2, _⟩ => ⟨S768x256, .f32⟩
  | .hbm, ⟨3, _⟩ => ⟨S768, .f32⟩
  | .hbm, ⟨4, _⟩ => ⟨S768, .f32⟩
  | .hbm, ⟨5, _⟩ => ⟨S32000x256, .f32⟩
  | .hbm, ⟨6, _⟩ => ⟨S32000, .f32⟩
  | .hbm, ⟨7, _⟩ => ⟨S_, .i32⟩
  | .hbm, ⟨8, _⟩ => ⟨S64x128, .i32⟩
  | .hbm, ⟨9, _⟩ => ⟨S64x128, .i1⟩
  | .hbm, ⟨10, _⟩ => ⟨S_, .i32⟩
  | .hbm, ⟨11, _⟩ => ⟨S64x128, .i32⟩
  | .hbm, ⟨12, _⟩ => ⟨S64x128, .i32⟩
  | .hbm, ⟨13, _⟩ => ⟨S64x128, .i32⟩
  | .hbm, ⟨14, _⟩ => ⟨S64x128x1, .i32⟩
  | .hbm, ⟨15, _⟩ => ⟨S64x128x256, .f32⟩
  | .hbm, ⟨16, _⟩ => ⟨S64x128x768, .f32⟩
  | .hbm, ⟨17, _⟩ => ⟨S1x1x768, .f32⟩
  | .hbm, ⟨18, _⟩ => ⟨S64x128x768, .f32⟩
  | .hbm, ⟨19, _⟩ => ⟨S64x128x768, .f32⟩
  | .hbm, ⟨20, _⟩ => ⟨S64x128x256, .f32⟩
  | .hbm, ⟨21, _⟩ => ⟨S64x128x256, .f32⟩
  | .hbm, ⟨22, _⟩ => ⟨S64x128x256, .f32⟩
  | .hbm, ⟨23, _⟩ => ⟨S256, .f32⟩
  | .hbm, ⟨24, _⟩ => ⟨S256, .f32⟩
  | .hbm, ⟨25, _⟩ => ⟨S256, .f32⟩
  | .hbm, ⟨26, _⟩ => ⟨S1x1x256, .f32⟩
  | .hbm, ⟨27, _⟩ => ⟨S64x128x256, .f32⟩
  | .hbm, ⟨28, _⟩ => ⟨S64x128x256, .f32⟩
  | .hbm, ⟨29, _⟩ => ⟨S64x128x256, .f32⟩
  | .hbm, ⟨30, _⟩ => ⟨S64x128x256, .f32⟩
  | .hbm, ⟨31, _⟩ => ⟨S_, .f32⟩
  | .hbm, ⟨32, _⟩ => ⟨S64x128x256, .f32⟩
  | .hbm, ⟨33, _⟩ => ⟨S64x128x256, .f32⟩
  | .hbm, ⟨34, _⟩ => ⟨S_, .f32⟩
  | .hbm, ⟨35, _⟩ => ⟨S64x128x256, .f32⟩
  | .hbm, ⟨36, _⟩ => ⟨S64x128x256, .f32⟩
  | .hbm, ⟨37, _⟩ => ⟨S1x1x256, .f32⟩
  | .hbm, ⟨38, _⟩ => ⟨S64x128x256, .f32⟩
  | .hbm, ⟨39, _⟩ => ⟨S64x128x256, .f32⟩
  | .hbm, ⟨40, _⟩ => ⟨S64x128x256, .f32⟩
  | .hbm, ⟨41, _⟩ => ⟨S64x128x256, .f32⟩
  | .hbm, ⟨42, _⟩ => ⟨S_, .f32⟩
  | .hbm, ⟨43, _⟩ => ⟨S64x128x256, .f32⟩
  | .hbm, ⟨44, _⟩ => ⟨S64x128x256, .f32⟩
  | .hbm, ⟨45, _⟩ => ⟨S_, .f32⟩
  | .hbm, ⟨46, _⟩ => ⟨S64x128x256, .f32⟩
  | .hbm, ⟨47, _⟩ => ⟨S64x128x256, .f32⟩
  | .hbm, ⟨48, _⟩ => ⟨S1x1x256, .f32⟩
  | .hbm, ⟨49, _⟩ => ⟨S64x128x256, .f32⟩
  | .hbm, ⟨50, _⟩ => ⟨S64x128x256, .f32⟩
  | .hbm, ⟨51, _⟩ => ⟨S64x128x256, .f32⟩
  | .hbm, ⟨52, _⟩ => ⟨S64x128x256, .f32⟩
  | .hbm, ⟨53, _⟩ => ⟨S_, .f32⟩
  | .hbm, ⟨54, _⟩ => ⟨S64x128x256, .f32⟩
  | .hbm, ⟨55, _⟩ => ⟨S64x128x256, .f32⟩
  | .hbm, ⟨56, _⟩ => ⟨S64x128x256, .f32⟩
  | .hbm, ⟨57, _⟩ => ⟨S64x128x32000, .f32⟩
  | .hbm, ⟨58, _⟩ => ⟨S1x1x32000, .f32⟩
  | .hbm, ⟨59, _⟩ => ⟨S64x128x32000, .f32⟩
  | .hbm, ⟨60, _⟩ => ⟨S64x128x32000, .f32⟩
  | _, _ => ⟨S64x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst : Ref sig .tc := ⟨.hbm, 31, rfl⟩
abbrev main_v22 : Ref sig .tc := ⟨.hbm, 32, rfl⟩
abbrev main_v23 : Ref sig .tc := ⟨.hbm, 33, rfl⟩
abbrev main_cst_1 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_2 : Ref sig .tc := ⟨.hbm, 42, rfl⟩
abbrev main_v31 : Ref sig .tc := ⟨.hbm, 43, rfl⟩
abbrev main_v32 : Ref sig .tc := ⟨.hbm, 44, rfl⟩
abbrev main_cst_3 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_4 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩

abbrev nD : Nat := 1
abbrev τ : Topo := Topo.v7x

variable {F : FTy → Type} [FloatOps F]

class Facts₀ : Prop where
  bcast_S_S64x128 : S_.BroadcastsInDim S64x128 (![] : Fin 0 → Fin S64x128.rank)
  bcast_S64x128_S64x128x1_0_1 : S64x128.BroadcastsInDim S64x128x1 (![0, 1] : Fin 2 → Fin S64x128x1.rank)
  bcast_S768_S1x1x768_2 : S768.BroadcastsInDim S1x1x768 (![2] : Fin 1 → Fin S1x1x768.rank)
  bcast_S1x1x768_S64x128x768_0_1_2 : S1x1x768.BroadcastsInDim S64x128x768 (![0, 1, 2] : Fin 3 → Fin S64x128x768.rank)
  slices_S64x128x768_S64x128x256_0_0_0 : S64x128x768.Slices ![0, 0, 0] S64x128x256
  slices_S64x128x768_S64x128x256_0_0_256 : S64x128x768.Slices ![0, 0, 256] S64x128x256
  slices_S64x128x768_S64x128x256_0_0_512 : S64x128x768.Slices ![0, 0, 512] S64x128x256
  slices_S768_S256_0 : S768.Slices ![0] S256
  slices_S768_S256_256 : S768.Slices ![256] S256
  slices_S768_S256_512 : S768.Slices ![512] S256
  bcast_S256_S1x1x256_2 : S256.BroadcastsInDim S1x1x256 (![2] : Fin 1 → Fin S1x1x256.rank)
  bcast_S1x1x256_S64x128x256_0_1_2 : S1x1x256.BroadcastsInDim S64x128x256 (![0, 1, 2] : Fin 3 → Fin S64x128x256.rank)
  bcast_S_S64x128x256 : S_.BroadcastsInDim S64x128x256 (![] : Fin 0 → Fin S64x128x256.rank)
  bcast_S32000_S1x1x32000_2 : S32000.BroadcastsInDim S1x1x32000 (![2] : Fin 1 → Fin S1x1x32000.rank)
  bcast_S1x1x32000_S64x128x32000_0_1_2 : S1x1x32000.BroadcastsInDim S64x128x32000 (![0, 1, 2] : Fin 3 → Fin S64x128x32000.rank)
  gather_S32000x256_S64x128x1_S64x128x256_2_0_n_n_0_2_1256_wf : GatherDims.WF S32000x256 S64x128x1 S64x128x256 [2] [0] [] [0] [] 2 ![1, 256]
  dot_S64x128x256_S768x256_S64x128x768_2_1_01_0_n_n_wf : DotDims.WF S64x128x256 S768x256 S64x128x768 [2] [1] [0, 1] [0] [] []
  dot_S64x128x256_S32000x256_S64x128x32000_2_1_01_0_n_n_wf : DotDims.WF S64x128x256 S32000x256 S64x128x32000 [2] [1] [0, 1] [0] [] []

variable [Facts₀]

def gather_S32000x256_S64x128x1_S64x128x256_2_0_n_n_0_2_1256 : GatherDims S32000x256 S64x128x1 S64x128x256 where
  offsetDims := [2]
  collapsedSliceDims := [0]
  operandBatchingDims := []
  startIndicesBatchingDims := []
  startIndexMap := [0]
  indexVectorDim := 2
  sliceSizes := ![1, 256]
  wf := gather_S32000x256_S64x128x1_S64x128x256_2_0_n_n_0_2_1256_wf
def dot_S64x128x256_S768x256_S64x128x768_2_1_01_0_n_n : DotDims S64x128x256 S768x256 S64x128x768 where
  lhsContracting := [2]
  rhsContracting := [1]
  lhsNonContracting := [0, 1]
  rhsNonContracting := [0]
  lhsBatch := []
  rhsBatch := []
  wf := dot_S64x128x256_S768x256_S64x128x768_2_1_01_0_n_n_wf
def dot_S64x128x256_S32000x256_S64x128x32000_2_1_01_0_n_n : DotDims S64x128x256 S32000x256 S64x128x32000 where
  lhsContracting := [2]
  rhsContracting := [1]
  lhsNonContracting := [0, 1]
  rhsNonContracting := [0]
  lhsBatch := []
  rhsBatch := []
  wf := dot_S64x128x256_S32000x256_S64x128x32000_2_1_01_0_n_n_wf

class Facts : Prop extends Facts₀ where

variable [Facts]
-- ==== Proof.Spec.lean ====
/-
  One step of a gated recurrent cell started from the zero state, followed by a linear read-out, as plain functions of
  arrays of extended reals.

  For a row p of the input matrix X (8192 rows of 256 features) the three gate pre-activations are the 768 columns of
  X · Wᵀ + b_i: columns 0..255 feed the reset gate, 256..511 the update gate, 512..767 the candidate. With the previous
  state zero only the recurrent bias b_h survives, so

      r = σ(g_r + b_h[r]),   z = σ(g_z + b_h[z]),   n = tanh(g_n + r · b_h[n]),   h = (1 − z) · n,

  and the read-out is h · Cᵀ + d over 32000 classes. The arrays arrive re-laid (a [64,128,256] batch flattened to
  [8192,256], the weight matrices transposed, the class bias as a one-row matrix); `flat`, `tr` and `row` name those
  re-layings as index maps, and `result` is the whole computation on the [64,128] batch.
-/
import Idealize.ShloMosaic.PureOps.Ideal
import Idealize.ShloMosaic.Lib.ValueIdx

noncomputable section

open Idealize.ShloMosaic Idealize.ShloMosaic.ValueIdx

namespace Cert.GruStep

/-- Arrays of extended reals over literal extents. -/
abbrev Arr1 (n : Nat) : Type := (⟨1, ![n]⟩ : Shape).Idx → EReal
abbrev Arr2 (a b : Nat) : Type := (⟨2, ![a, b]⟩ : Shape).Idx → EReal
abbrev Arr3 (a b c : Nat) : Type := (⟨3, ![a, b, c]⟩ : Shape).Idx → EReal

/-- Unit j of the reset gate, of the update gate and of the candidate among the 768 gate columns. -/
abbrev colR (j : Fin 256) : Fin 768 := ⟨j.val, by have := j.isLt; omega⟩
abbrev colZ (j : Fin 256) : Fin 768 := ⟨256 + j.val, by have := j.isLt; omega⟩
abbrev colN (j : Fin 256) : Fin 768 := ⟨512 + j.val, by have := j.isLt; omega⟩

/-- The word of the float literal 1.0, kept as a word: both programs write the same one. -/
abbrev one : EReal := Ideal.ofBits .f32 0x3F800000#32

/-- Gate pre-activation g of row p: the row of X against column g of Wᵀ, plus the input bias. -/
def gate (X : Arr2 8192 256) (WT : Arr2 256 768) (bi : Arr1 768) (p : Fin 8192) (g : Fin 768) : EReal :=
  (∑ e : Fin 256, X (ix2 p e) * WT (ix2 e g)) + bi (ix1 g)

/-- The new state's unit j on row p: (1 − z) · n with the gates above. -/
def hiddenAt (X : Arr2 8192 256) (WT : Arr2 256 768) (bi bh : Arr1 768) (p : Fin 8192) (j : Fin 256) : EReal :=
  (one - Ideal.logistic (gate X WT bi p (colZ j) + bh (ix1 (colZ j))))
    * Ideal.tanh (gate X WT bi p (colN j)
        + Ideal.logistic (gate X WT bi p (colR j) + bh (ix1 (colR j))) * bh (ix1 (colN j)))

/-- The new state as an [8192, 256] array. -/
def hidden (X : Arr2 8192 256) (WT : Arr2 256 768) (bi bh : Arr1 768) : Arr2 8192 256 :=
  fun i => hiddenAt X WT bi bh (i 0) (i 1)

theorem hidden_ix2 (X : Arr2 8192 256) (WT : Arr2 256 768) (bi bh : Arr1 768) (p : Fin 8192) (j : Fin 256) :
    hidden X WT bi bh (ix2 p j) = hiddenAt X WT bi bh p j := rfl

/-- Class v's score on row p: the state's row against column v of Cᵀ, plus the class bias (a one-row matrix). -/
def logitsAt (H : Arr2 8192 256) (CT : Arr2 256 32000) (d : Arr2 1 32000) (p : Fin 8192) (v : Fin 32000) : EReal :=
  (∑ k : Fin 256, H (ix2 p k) * CT (ix2 k v)) + d (ix2 (0 : Fin 1) v)

/-- The scores as an [8192, 32000] array. -/
def logits (H : Arr2 8192 256) (CT : Arr2 256 32000) (d : Arr2 1 32000) : Arr2 8192 32000 :=
  fun i => logitsAt H CT d (i 0) (i 1)

theorem logits_ix2 (H : Arr2 8192 256) (CT : Arr2 256 32000) (d : Arr2 1 32000) (p : Fin 8192) (v : Fin 32000) :
    logits H CT d (ix2 p v) = logitsAt H CT d p v := rfl

/-- Row b · 128 + t of the flattened batch. -/
abbrev rowOf (b : Fin 64) (t : Fin 128) : Fin 8192 := ⟨b.val * 128 + t.val, by have := b.isLt; have := t.isLt; omega⟩

/-- A [64, 128, 256] batch flattened to [8192, 256], row-major. -/
def flat (X3 : Arr3 64 128 256) : Arr2 8192 256 := fun i =>
  X3 (ix3 (⟨(i 0).val / 128, by have h : (i 0).val < 8192 := (i 0).isLt; omega⟩ : Fin 64)
          (⟨(i 0).val % 128, Nat.mod_lt _ (by decide)⟩ : Fin 128) (i 1))

theorem flat_rowOf (X3 : Arr3 64 128 256) (b : Fin 64) (t : Fin 128) (e : Fin 256) :
    flat X3 (ix2 (rowOf b t) e) = X3 (ix3 b t e) := by
  unfold flat
  have hb := b.isLt
  have ht := t.isLt
  refine congrArg X3 (funext fun a => Fin.ext ?_)
  match a with
  | ⟨0, _⟩ => show (b.val * 128 + t.val) / 128 = b.val; omega
  | ⟨1, _⟩ => show (b.val * 128 + t.val) % 128 = t.val; omega
  | ⟨2, _⟩ => rfl

/-- A matrix transposed. -/
def tr {a b : Nat} (A : Arr2 a b) : Arr2 b a := fun i => A (ix2 (i 1) (i 0))

theorem tr_ix2 {a b : Nat} (A : Arr2 a b) (j : Fin b) (i : Fin a) : tr A (ix2 j i) = A (ix2 i j) := rfl

/-- A vector as a one-row matrix. -/
def row {n : Nat} (v : Arr1 n) : Arr2 1 n := fun i => v (ix1 (i 1))

theorem row_ix2 {n : Nat} (v : Arr1 n) (u : Fin 1) (i : Fin n) : row v (ix2 u i) = v (ix1 i) := rfl

/-- The whole computation on the [64, 128] batch: entry (b, t, v) is class v's score on row b · 128 + t. -/
def result (X3 : Arr3 64 128 256) (W : Arr2 768 256) (bi bh : Arr1 768) (C : Arr2 32000 256) (d : Arr1 32000) :
    Arr3 64 128 32000 := fun i =>
  logitsAt (hidden (flat X3) (tr W) bi bh) (tr C) (row d) (rowOf (i 0) (i 1)) (i 2)

end Cert.GruStep

end
-- ==== Proof.HiddenArray.lean ====
import proofs.«121658_j71777493451434_1_alg».proof.Proof.Gen.KernelIdeal.Frame
import proofs.«121658_j71777493451434_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hidden

open Cert.KernelIdeal Cert.KernelIdeal.Gen

/-! ## A row block against the weights: the contraction over the 256 features

The product's record contracts axis 1 of the left operand with axis 0 of the right one; the four facts below say where
each operand is read for the output entry `i` and the contraction position `q`. -/

theorem prodL_row (i : S1024x768.Idx) (q : dot_S1024x256_S256x768_S1024x768_1_0_0_1_n_n.contr.Idx) :
    (dot_S1024x256_S256x768_S1024x768_1_0_0_1_n_n.lhsIdx i q 0).val = (i 0).val := by
  unfold DotDims.lhsIdx
  rw [dif_neg (show ¬(0 : Fin S1024x256.rank) ∈ dot_S1024x256_S256x768_S1024x768_1_0_0_1_n_n.lhsBatch by decide), dif_pos (show (0 : Fin S1024x256.rank) ∈ dot_S1024x256_S256x768_S1024x768_1_0_0_1_n_n.lhsNonContracting by decide)]
  rfl

theorem prodL_feature (i : S1024x768.Idx) (q : dot_S1024x256_S256x768_S1024x768_1_0_0_1_n_n.contr.Idx) :
    (dot_S1024x256_S256x768_S1024x768_1_0_0_1_n_n.lhsIdx i q 1).val = (q ⟨0, by decide⟩).val :=
  dot_S1024x256_S256x768_S1024x768_1_0_0_1_n_n.lhsIdx_val_of_single rfl i q

theorem prodR_feature (i : S1024x768.Idx) (q : dot_S1024x256_S256x768_S1024x768_1_0_0_1_n_n.contr.Idx) :
    (dot_S1024x256_S256x768_S1024x768_1_0_0_1_n_n.rhsIdx i q 0).val = (q ⟨0, by decide⟩).val :=
  dot_S1024x256_S256x768_S1024x768_1_0_0_1_n_n.rhsIdx_val_of_single rfl i q

theorem prodR_column (i : S1024x768.Idx) (q : dot_S1024x256_S256x768_S1024x768_1_0_0_1_n_n.contr.Idx) :
    (dot_S1024x256_S256x768_S1024x768_1_0_0_1_n_n.rhsIdx i q 1).val = (i 1).val := by
  unfold DotDims.rhsIdx
  rw [dif_neg (show ¬(1 : Fin S256x768.rank) ∈ dot_S1024x256_S256x768_S1024x768_1_0_0_1_n_n.rhsBatch by decide), dif_pos (show (1 : Fin S256x768.rank) ∈ dot_S1024x256_S256x768_S1024x768_1_0_0_1_n_n.rhsNonContracting by decide)]
  rfl

/-- Entry (q, g) of the product into a zero accumulator: row q of the left operand against column g of the right. -/
theorem product_apply (a : FVec Ideal S1024x256 .bf16) (b : FVec Ideal S256x768 .bf16) (q : Fin 1024) (g : Fin 768) :
    matmul dot_S1024x256_S256x768_S1024x768_1_0_0_1_n_n none a b (constant (F := Ideal) S1024x768 .f32 0x00000000#32) (ix2 q g)
      = ∑ e : Fin 256, a (ix2 q e) * b (ix2 e g) := by
  show FloatOps.matmul dot_S1024x256_S256x768_S1024x768_1_0_0_1_n_n none a b (constant (F := Ideal) S1024x768 .f32 0x00000000#32) (ix2 q g) = _
  rw [Ideal.matmul_constant_zero_apply, ← Equiv.sum_comp (ValueIdx.contrEquiv1 dot_S1024x256_S256x768_S1024x768_1_0_0_1_n_n 256 rfl rfl).symm]
  refine Finset.sum_congr rfl fun k _ => ?_
  have hk := ValueIdx.contrEquiv1_symm_val dot_S1024x256_S256x768_S1024x768_1_0_0_1_n_n 256 rfl rfl k
  have el : dot_S1024x256_S256x768_S1024x768_1_0_0_1_n_n.lhsIdx (ix2 q g) ((ValueIdx.contrEquiv1 dot_S1024x256_S256x768_S1024x768_1_0_0_1_n_n 256 rfl rfl).symm k) = ix2 q k := funext fun ax => Fin.ext (by
    match ax with
    | ⟨0, _⟩ => exact prodL_row _ _
    | ⟨1, _⟩ => exact (prodL_feature _ _).trans hk)
  have er : dot_S1024x256_S256x768_S1024x768_1_0_0_1_n_n.rhsIdx (ix2 q g) ((ValueIdx.contrEquiv1 dot_S1024x256_S256x768_S1024x768_1_0_0_1_n_n 256 rfl rfl).symm k) = ix2 k g := funext fun ax => Fin.ext (by
    match ax with
    | ⟨0, _⟩ => exact (prodR_feature _ _).trans hk
    | ⟨1, _⟩ => exact prodR_column _ _)
  rw [el, er]

/-! ## The block's gate pre-activations, their three column ranges, and the recurrent bias spread over the rows -/

/-- Gate pre-activation g of row q of a block of rows: the row against column g of the weights, plus the input bias. -/
def blockGate (x0 : Vec Ideal S1024x256 .f32) (x1 : Vec Ideal S256x768 .bf16) (x2 : Vec Ideal S768 .f32)
    (q : Fin 1024) (g : Fin 768) : EReal :=
  (∑ e : Fin 256, (x0 (ix2 q e) : EReal) * (x1 (ix2 e g) : EReal)) + (x2 (ix1 g) : EReal)

/-- The [1024, 768] matrix the body forms — the product of the block (its format narrowed, which changes nothing here)
    with the weights, plus the bias as one row spread over all rows — holds `blockGate` at every entry. -/
theorem gates_apply (x0 : Vec Ideal S1024x256 .f32) (x1 : Vec Ideal S256x768 .bf16) (x2 : Vec Ideal S768 .f32)
    (h0 : S1024x256.ShapeCasts S1024x256) (hb : FTy.bits .bf16 < FTy.bits .f32) (h1 : S256x768.ShapeCasts S256x768)
    (h2 : S768.ShapeCasts S1x768) (h3 : S1x768.Broadcasts S1024x768) (q : Fin 1024) (g : Fin 768) :
    addf (matmul dot_S1024x256_S256x768_S1024x768_1_0_0_1_n_n none (truncf .bf16 (shapeCast S1024x256 x0 h0 : FVec Ideal S1024x256 .f32) hb)
            (shapeCast S256x768 x1 h1 : FVec Ideal S256x768 .bf16) (constant (F := Ideal) S1024x768 .f32 0x00000000#32))
         (broadcastTo S1024x768 (shapeCast S1x768 x2 h2 : FVec Ideal S1x768 .f32) h3) (ix2 q g)
      = blockGate x0 x1 x2 q g := by
  rw [shapeCast_self, shapeCast_self]
  refine congrArg₂ (· + ·) ?_ ?_
  · exact product_apply (truncf .bf16 x0 hb) x1 q g
  · exact (broadcastTo_1b_ab_apply _ h3 q g).trans (shapeCast_a_1a_apply x2 h2 0 g)

/-- Columns o .. o + 255 of a [1024, 768] matrix, read at (q, j): the matrix at column o + j. -/
theorem columns_apply (o : Nat) (W : FVec Ideal S1024x768 .f32) (h : S1024x768.Slices ![0, o] S1024x256)
    (q : Fin 1024) (j : Fin 256) (g : Fin 768) (hg : g.val = o + j.val) :
    extractStridedSlice S1024x256 ![0, o] W h (ix2 q j) = W (ix2 q g) :=
  (slice2_axis1_eq o W h q j).trans (congrArg W (congrArg (ix2 q) (Fin.ext hg.symm)))

/-- Entries o .. o + 255 of the recurrent bias, made one row and spread over the 1024 rows, read at (q, j): the bias at
    o + j. -/
theorem biasRows_apply (o : Nat) (x3 : Vec Ideal S768 .f32) (hs : S768.Slices ![o] S256) (hc : S256.ShapeCasts S1x256)
    (hb : S1x256.Broadcasts S1024x256) (q : Fin 1024) (j : Fin 256) (g : Fin 768) (hg : g.val = o + j.val) :
    broadcastTo S1024x256 (shapeCast S1x256 (extractStridedSlice S256 ![o] x3 hs : FVec Ideal S256 .f32) hc : FVec Ideal S1x256 .f32) hb (ix2 q j) = x3 (ix1 g) := by
  refine (broadcastTo_1b_ab_apply _ hb q j).trans ?_
  refine (shapeCast_a_1a_apply _ hc 0 j).trans ?_
  exact extractStridedSlice_apply ![o] x3 hs (ix1 j) (ix1 g) (fun a => match a with | ⟨0, _⟩ => hg)

/-! ## What the body stores, entry by entry -/

open Cert.GruStep (colR colZ colN) in
/-- Entry (q, j) of the block the body stores: (1 − z) · n, the update gate z, the reset gate r and the candidate n read
    from the block's own gate pre-activations and the recurrent bias. The narrowing of the stored format changes nothing
    over the extended reals. -/
theorem block_apply (x0 : Vec Ideal S1024x256 .f32) (x1 : Vec Ideal S256x768 .bf16) (x2 x3 : Vec Ideal S768 .f32)
    (q : Fin 1024) (j : Fin 256) :
    k0_pay1 (F := Ideal) x0 x1 x2 x3 (ix2 q j)
      = (Cert.GruStep.one - Ideal.logistic (blockGate x0 x1 x2 q (colZ j) + (x3 (ix1 (colZ j)) : EReal)))
          * Ideal.tanh (blockGate x0 x1 x2 q (colN j)
              + Ideal.logistic (blockGate x0 x1 x2 q (colR j) + (x3 (ix1 (colR j)) : EReal))
                  * (x3 (ix1 (colN j)) : EReal)) := by
  unfold k0_pay1
  show (Cert.GruStep.one - Ideal.logistic (_ + _)) * Ideal.tanh (_ + Ideal.logistic (_ + _) * _) = _
  refine congrArg₂ (· * ·) (congrArg (Cert.GruStep.one - ·) (congrArg Ideal.logistic (congrArg₂ (· + ·) ?_ ?_)))
    (congrArg Ideal.tanh (congrArg₂ (· + ·) ?_ (congrArg₂ (· * ·) (congrArg Ideal.logistic (congrArg₂ (· + ·) ?_ ?_)) ?_)))
  · exact (columns_apply 256 _ _ q j (colZ j) rfl).trans (gates_apply x0 x1 x2 _ _ _ _ _ q (colZ j))
  · exact biasRows_apply 256 x3 _ _ _ q j (colZ j) rfl
  · exact (columns_apply 512 _ _ q j (colN j) rfl).trans (gates_apply x0 x1 x2 _ _ _ _ _ q (colN j))
  · exact (columns_apply 0 _ _ q j (colR j) (Nat.zero_add _).symm).trans (gates_apply x0 x1 x2 _ _ _ _ _ q (colR j))
  · exact biasRows_apply 0 x3 _ _ _ q j (colR j) (Nat.zero_add _).symm
  · exact biasRows_apply 512 x3 _ _ _ q j (colN j) rfl

/-! ## From the blocks to the array

Grid point t works on rows 1024 · b .. 1024 · b + 1023 of the inputs and of the state, b its block index; the weights
and the two biases are read whole at every point. -/

theorem origin2 : (![0, 0] : Fin 2 → Nat) = fun _ => 0 := funext fun a => match a with | ⟨0, _⟩ => rfl | ⟨1, _⟩ => rfl

theorem origin1 : (![0] : Fin 1 → Nat) = fun _ => 0 := funext fun a => match a with | ⟨0, _⟩ => rfl

/-- The printed index maps, decided over the eight grid points: the input rows move with the state's rows, every other
    block index is 0, and the state's row-block index stays below 8. -/
theorem blockIndex_facts : ∀ t : Fin cfg0.N,
    win0_0.index t (0 : Fin 2) = win0_4.index t (0 : Fin 2) ∧ win0_0.index t (1 : Fin 2) = 0
    ∧ win0_1.index t (0 : Fin 2) = 0 ∧ win0_1.index t (1 : Fin 2) = 0
    ∧ win0_2.index t (0 : Fin 1) = 0 ∧ win0_3.index t (0 : Fin 1) = 0
    ∧ win0_4.index t (1 : Fin 2) = 0 ∧ win0_4.index t (0 : Fin 2) ≤ 7 :=
  (by decide +kernel : ∀ t : Fin grid0.N, _)

/-- Every one of the eight row blocks of the state is some grid point's. -/
theorem blockIndex_onto : ∀ q0 : Fin 8, ∃ t : Fin cfg0.N, win0_4.index t = ![q0.val, 0] :=
  (by decide +kernel : ∀ q0 : Fin 8, ∃ t : Fin grid0.N, win0_4.index t = ![q0.val, 0])

/-- The specification's array at an index whose coordinates are known. -/
theorem hidden_at (X : Cert.GruStep.Arr2 8192 256) (WT : Cert.GruStep.Arr2 256 768) (bi bh : Cert.GruStep.Arr1 768)
    (i : (⟨2, ![8192, 256]⟩ : Shape).Idx) (p : Fin 8192) (j : Fin 256) (h0 : (i 0).val = p.val) (h1 : (i 1).val = j.val) :
    Cert.GruStep.hidden X WT bi bh i = Cert.GruStep.hiddenAt X WT bi bh p j := by
  have e : i = ix2 p j := funext fun a => match a with | ⟨0, _⟩ => Fin.ext h0 | ⟨1, _⟩ => Fin.ext h1
  rw [e]
  rfl

variable (V : (c : Dev nD) → (b : Ref sig .tc) → Buf (Elt Ideal) ((c : Thread nD τ).loc b))

/-- Row q of point t's block of inputs is row 1024 · b + q of the input array. -/
theorem inputs_read (c : Dev nD) (t : Fin cfg0.N) (q : Fin 1024) (e : Fin 256) (p : Fin 8192)
    (hp : p.val = win0_4.index t (0 : Fin 2) * 1024 + q.val) :
    iblk0 V c 0 t (ix2 q e) = V c main_v7 (ix2 p e) := by
  obtain ⟨e0, e1, -⟩ := blockIndex_facts t
  show V c main_v7 (((cfg0.win 0).blk t).view.emb (ix2 q e)) = V c main_v7 (ix2 p e)
  refine congrArg _ (funext fun a => Fin.ext ?_)
  match a with
  | ⟨0, _⟩ => show win0_0.index t (0 : Fin 2) * 1024 + 1 * q.val = p.val; omega
  | ⟨1, _⟩ => show win0_0.index t (1 : Fin 2) * 256 + 1 * e.val = e.val; omega

/-- The weights are read whole at every point. -/
theorem weights_read (c : Dev nD) (t : Fin cfg0.N) (e : Fin 256) (g : Fin 768) :
    iblk0 V c 1 t (ix2 e g) = V c main_v9 (ix2 e g) := by
  obtain ⟨-, -, e2, e3, -⟩ := blockIndex_facts t
  show V c main_v9 (((cfg0.win 1).blk t).view.emb (ix2 e g)) = V c main_v9 (ix2 e g)
  refine congrArg _ (funext fun a => Fin.ext ?_)
  match a with
  | ⟨0, _⟩ => show win0_1.index t (0 : Fin 2) * 256 + 1 * e.val = e.val; omega
  | ⟨1, _⟩ => show win0_1.index t (1 : Fin 2) * 768 + 1 * g.val = g.val; omega

/-- So is the input bias, -/
theorem inputBias_read (c : Dev nD) (t : Fin cfg0.N) (g : Fin 768) :
    iblk0 V c 2 t (ix1 g) = V c main_arg3 (ix1 g) := by
  obtain ⟨-, -, -, -, e4, -⟩ := blockIndex_facts t
  show V c main_arg3 (((cfg0.win 2).blk t).view.emb (ix1 g)) = V c main_arg3 (ix1 g)
  refine congrArg _ (funext fun a => Fin.ext ?_)
  match a with
  | ⟨0, _⟩ => show win0_2.index t (0 : Fin 1) * 768 + 1 * g.val = g.val; omega

/-- and the recurrent bias. -/
theorem recurrentBias_read (c : Dev nD) (t : Fin cfg0.N) (g : Fin 768) :
    iblk0 V c 3 t (ix1 g) = V c main_arg4 (ix1 g) := by
  obtain ⟨-, -, -, -, -, e5, -⟩ := blockIndex_facts t
  show V c main_arg4 (((cfg0.win 3).blk t).view.emb (ix1 g)) = V c main_arg4 (ix1 g)
  refine congrArg _ (funext fun a => Fin.ext ?_)
  match a with
  | ⟨0, _⟩ => show win0_3.index t (0 : Fin 1) * 768 + 1 * g.val = g.val; omega

/-- The block's gate pre-activations on its row q are the array's on row 1024 · b + q. -/
theorem blockGate_eq (c : Dev nD) (t : Fin cfg0.N) (q : Fin 1024) (p : Fin 8192)
    (hp : p.val = win0_4.index t (0 : Fin 2) * 1024 + q.val) (g : Fin 768) :
    blockGate (iblk0 V c 0 t) (iblk0 V c 1 t) (iblk0 V c 2 t) q g
      = Cert.GruStep.gate (V c main_v7) (V c main_v9) (V c main_arg3) p g :=
  congrArg₂ (· + ·)
    (Finset.sum_congr rfl fun e _ => congrArg₂ (· * ·) (inputs_read V c t q e p hp) (weights_read V c t e g))
    (inputBias_read V c t g)

open Cert.GruStep (colR colZ colN) in
/-- What grid point t writes back is its block of the specification's array: rows 1024 · b .. 1024 · b + 1023 of the new
    state, computed from the arrays as the region finds them. -/
theorem flushed_eq (c : Dev nD) (t : Fin cfg0.N) :
    (dat0 (F := Ideal) V c).flushed 4 t
      = ((cfg0.win 4).blk t).view.read (Elt Ideal)
          (Cert.GruStep.hidden (V c main_v7) (V c main_v9) (V c main_arg3) (V c main_arg4)) := by
  show (cfg0.win 4).cut (grid0.coords t) ((dat0 (F := Ideal) V c).after 4 t) = _
  rw [after0_4]
  unfold out0_4
  rw [View.canon_unit_zero origin2]
  simp only [View.ld_unit_zero (S := S1024x256) origin2, View.ld_unit_zero (S := S256x768) origin2,
    View.ld_unit_zero (S := S768) origin1]
  obtain ⟨-, -, -, -, -, -, e6, e7⟩ := blockIndex_facts t
  funext y
  obtain ⟨q, j, rfl⟩ : ∃ (q : Fin 1024) (j : Fin 256), y = ix2 q j := ⟨y 0, y 1, eq_ix2 (n0 := 1024) (n1 := 256) y⟩
  have hq := q.isLt
  refine (block_apply (iblk0 V c 0 t) (iblk0 V c 1 t) (iblk0 V c 2 t) (iblk0 V c 3 t) q j).trans ?_
  have hp : (⟨win0_4.index t (0 : Fin 2) * 1024 + q.val, by omega⟩ : Fin 8192).val
      = win0_4.index t (0 : Fin 2) * 1024 + q.val := rfl
  have hG := blockGate_eq V c t q ⟨win0_4.index t (0 : Fin 2) * 1024 + q.val, by omega⟩ hp
  have hB := recurrentBias_read V c t
  refine Eq.trans (b := Cert.GruStep.hiddenAt (V c main_v7) (V c main_v9) (V c main_arg3) (V c main_arg4)
    ⟨win0_4.index t (0 : Fin 2) * 1024 + q.val, by omega⟩ j) ?_ ?_
  · exact congrArg₂ (· * ·)
      (congrArg (Cert.GruStep.one - ·) (congrArg Ideal.logistic (congrArg₂ (· + ·) (hG (colZ j)) (hB (colZ j)))))
      (congrArg Ideal.tanh (congrArg₂ (· + ·) (hG (colN j))
        (congrArg₂ (· * ·) (congrArg Ideal.logistic (congrArg₂ (· + ·) (hG (colR j)) (hB (colR j)))) (hB (colN j)))))
  · refine (hidden_at _ _ _ _ (((cfg0.win 4).blk t).view.emb (ix2 q j)) _ j ?_ ?_).symm
    · show win0_4.index t (0 : Fin 2) * 1024 + 1 * q.val = win0_4.index t (0 : Fin 2) * 1024 + q.val
      omega
    · show win0_4.index t (1 : Fin 2) * 256 + 1 * j.val = j.val
      omega

/-- An index of the state array is in point t's block iff each coordinate is in the block's range on its axis. -/
theorem mem_block (t : Fin cfg0.N) (i : S8192x256.Idx) :
    i ∈ ((cfg0.win 4).blk t).view.set
      ↔ ∀ a : Fin 2, win0_4.index t a * S1024x256.size a ≤ (i a).val
          ∧ (i a).val < win0_4.index t a * S1024x256.size a + S1024x256.size a := by
  show i ∈ ((View.whole main_v13).slice (win0_4.rect t)).set ↔ _
  rw [View.set_slice_whole, Rect.mem_set_unit]
  exact Iff.rfl

/-- Every index of the state array is written back by some point: row r by the point whose block index is r / 1024. -/
theorem covered (i : S8192x256.Idx) :
    ∃ t : Fin cfg0.N, (cfg0.win 4).flush t = true ∧ i ∈ ((cfg0.win 4).blk t).view.set := by
  have hi0 : (i 0).val < 8192 := (i 0).isLt
  have hi1 : (i 1).val < 256 := (i 1).isLt
  obtain ⟨t, ht⟩ := blockIndex_onto ⟨(i 0).val / 1024, by omega⟩
  have q0 : win0_4.index t (0 : Fin 2) = (i 0).val / 1024 := congrFun ht 0
  have q1 : win0_4.index t (1 : Fin 2) = 0 := congrFun ht 1
  refine ⟨t, flush0_4 t, ?_⟩
  rw [mem_block]
  intro a
  match a with
  | ⟨0, _⟩ =>
    show win0_4.index t (0 : Fin 2) * 1024 ≤ (i 0).val ∧ (i 0).val < win0_4.index t (0 : Fin 2) * 1024 + 1024
    omega
  | ⟨1, _⟩ =>
    show win0_4.index t (1 : Fin 2) * 256 ≤ (i 1).val ∧ (i 1).val < win0_4.index t (1 : Fin 2) * 256 + 256
    omega

/-- After the first region the state array holds the new state of every row, computed from the arrays the region
    finds: the flattened inputs, the transposed input weights and the two biases. -/
theorem array (c : Dev nD) :
    (dat0 (F := Ideal) V c).arrAt 4 cfg0.N
      = Cert.GruStep.hidden (V c main_v7) (V c main_v9) (V c main_arg3) (V c main_arg4) := by
  exact (dat0 (F := Ideal) V c).arrAt_eq_of_cover 4
    (Cert.GruStep.hidden (V c main_v7) (V c main_v9) (V c main_arg3) (V c main_arg4))
    (fun t _ => flushed_eq V c t) covered

end Cert.KernelIdeal.Hidden

end
-- ==== Proof.LibPlainMatmul.lean ====
/-
  The product of an M × K matrix by a K × N matrix read at one element, for the vector unit's product accumulated into
  a zero matrix: row e, column j is the sum over k of the left matrix at (e, k) times the right matrix at (k, j). At
  the ideal values.
-/
import Idealize.ShloMosaic.PureOps.Ideal.Laws
import Idealize.ShloMosaic.Lib.ValueIdx
import Idealize.ShloMosaic.Lib.KernelVsHost
import Idealize.ShloMosaic.Lib.StackMember

noncomputable section

open Idealize.ShloMosaic Idealize.ShloMosaic.ValueIdx

namespace Cert.LibPlainMatmul

/-- The product accumulated into a zero matrix, at row e and column j. -/
theorem matmul_plain_apply {M K N : ℕ} {φ₁ φ₂ : FTy} (prec : Option ContractPrecision)
    (l : FVec Ideal ⟨2, ![M, K]⟩ φ₁) (r : FVec Ideal ⟨2, ![K, N]⟩ φ₂) (e : Fin M) (j : Fin N) :
    matmul (DotDims.plain M K N) prec l r (constant (⟨2, ![M, N]⟩ : Shape) .f32 0x00000000#32) (ix2 e j)
      = ∑ k : Fin K, l (ix2 e k) * r (ix2 k j) := by
  rw [matmul_zero_eq_dotGeneral]
  exact StackMember.dotGeneral_plain_apply prec l r e j

/-- The host's product, at row e and column j. -/
theorem dotGeneral_plain_apply {M K N : ℕ} {φ₁ φ₂ : FTy} (prec : Option ContractPrecision)
    (l : FVec Ideal ⟨2, ![M, K]⟩ φ₁) (r : FVec Ideal ⟨2, ![K, N]⟩ φ₂) (e : Fin M) (j : Fin N) :
    Host.dotGeneral (DotDims.plain M K N) prec l r (ix2 e j) = ∑ k : Fin K, l (ix2 e k) * r (ix2 k j) :=
  StackMember.dotGeneral_plain_apply prec l r e j

end Cert.LibPlainMatmul

end
-- ==== Proof.ScoresArray.lean ====
import proofs.«121658_j71777493451434_1_alg».proof.Proof.Gen.KernelIdeal.Frame
import proofs.«121658_j71777493451434_1_alg».proof.Proof.Spec
import proofs.«121658_j71777493451434_1_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

/-!
  The read-out region. Its grid walks the [8192, 32000] score array in 16 × 10 blocks of 512 rows by 3200 classes. At
  a point the body multiplies the point's 512 state rows by the point's 3200 columns of the transposed class weights
  and adds the point's stretch of the class bias; so what the point writes back is the block of `logits` of the three
  whole arrays, and the blocks tile the array.
-/

namespace Cert.KernelIdeal.Scores

open Cert.KernelIdeal Cert.KernelIdeal.Gen

variable (V : (c : Dev nD) → (b : Ref sig .tc) → Buf (Elt Ideal) ((c : Thread nD τ).loc b))

/-- The body's contraction is the plain one: rows by columns over the shared axis of length 256. -/
theorem dims_plain : dot_S512x256_S256x3200_S512x3200_1_0_0_1_n_n = DotDims.plain 512 256 3200 := rfl

/-- Entry (q, u) of what the body stores: row q of the state block against column u of the weight block, plus
    entry u of the bias row. -/
theorem score_block (x0 : Vec Ideal S512x256 .bf16) (x1 : Vec Ideal S256x3200 .bf16) (x2 : Vec Ideal S1x3200 .f32)
    (q : Fin 512) (u : Fin 3200) :
    k1_pay1 (F := Ideal) x0 x1 x2 (ix2 q u) = (∑ k : Fin 256, x0 (ix2 q k) * x1 (ix2 k u)) + x2 (ix2 (0 : Fin 1) u) := by
  unfold k1_pay1
  simp only [shapeCast_self]
  show (matmul (F := Ideal) dot_S512x256_S256x3200_S512x3200_1_0_0_1_n_n none x0 x1 (constant S512x3200 .f32 0x00000000#32) (ix2 q u) : EReal)
      + (broadcastTo S512x3200 x2 broadcasts_S1x3200_S512x3200 (ix2 q u) : EReal) = _
  rw [dims_plain, Cert.LibPlainMatmul.matmul_plain_apply, broadcastTo_1b_ab_apply]

/-- The scores at an index whose coordinates are row P and class v. -/
theorem logits_at (H : Cert.GruStep.Arr2 8192 256) (CT : Cert.GruStep.Arr2 256 32000) (d : Cert.GruStep.Arr2 1 32000)
    (i : (⟨2, ![8192, 32000]⟩ : Shape).Idx) (p : Fin 8192) (v : Fin 32000) (h0 : (i 0).val = p.val) (h1 : (i 1).val = v.val) :
    Cert.GruStep.logits H CT d i = Cert.GruStep.logitsAt H CT d p v := by
  have e : i = ix2 p v := funext fun a => Fin.ext (by
    match a with
    | ⟨0, _⟩ => exact h0
    | ⟨1, _⟩ => exact h1)
  rw [e]; rfl

/-- How the four windows move over the grid: the state block and the output block share their row block, the weight
    block, the bias block and the output block share their column block, every other block index is zero. -/
theorem idx_facts : ∀ t : Fin cfg1.N,
    win1_0.index t (0 : Fin 2) = win1_3.index t (0 : Fin 2) ∧ win1_0.index t (1 : Fin 2) = 0
    ∧ win1_1.index t (0 : Fin 2) = 0 ∧ win1_1.index t (1 : Fin 2) = win1_3.index t (1 : Fin 2)
    ∧ win1_2.index t (0 : Fin 2) = 0 ∧ win1_2.index t (1 : Fin 2) = win1_3.index t (1 : Fin 2)
    ∧ win1_3.index t (0 : Fin 2) ≤ 15 ∧ win1_3.index t (1 : Fin 2) ≤ 9 :=
  (by decide +kernel : ∀ t : Fin grid1.N, _)

/-- Every one of the 16 × 10 blocks is some point's. -/
theorem idx_onto : ∀ (q0 : Fin 16) (q1 : Fin 10), ∃ t : Fin cfg1.N, win1_3.index t = ![q0.val, q1.val] :=
  (by decide +kernel : ∀ (q0 : Fin 16) (q1 : Fin 10), ∃ t : Fin grid1.N, win1_3.index t = ![q0.val, q1.val])

theorem hz : (![0, 0] : Fin 2 → Nat) = fun _ => 0 := funext fun a => by fin_cases a <;> rfl

/-- Row q, feature k of the point's state block is row (row block · 512 + q) of the state array. -/
theorem read_state (c : Dev nD) (t : Fin cfg1.N) (q : Fin 512) (k : Fin 256) (p : Fin 8192)
    (hp : p.val = win1_3.index t (0 : Fin 2) * 512 + q.val) :
    iblk1 V c 0 t (ix2 q k) = V c main_v13 (ix2 p k) := by
  obtain ⟨e0, e1, -, -, -, -, -, -⟩ := idx_facts t
  unfold iblk1
  rw [View.read_apply]
  show V c main_v13 _ = V c main_v13 _
  refine congrArg _ (funext fun a => Fin.ext ?_)
  match a with
  | ⟨0, _⟩ => show win1_0.index t (0 : Fin 2) * 512 + 1 * q.val = p.val; omega
  | ⟨1, _⟩ => show win1_0.index t (1 : Fin 2) * 256 + 1 * k.val = k.val; omega

/-- Feature k, column u of the point's weight block is column (column block · 3200 + u) of the transposed weights. -/
theorem read_weight (c : Dev nD) (t : Fin cfg1.N) (k : Fin 256) (u : Fin 3200) (v : Fin 32000)
    (hv : v.val = win1_3.index t (1 : Fin 2) * 3200 + u.val) :
    iblk1 V c 1 t (ix2 k u) = V c main_v11 (ix2 k v) := by
  obtain ⟨-, -, e2, e3, -, -, -, -⟩ := idx_facts t
  unfold iblk1
  rw [View.read_apply]
  show V c main_v11 _ = V c main_v11 _
  refine congrArg _ (funext fun a => Fin.ext ?_)
  match a with
  | ⟨0, _⟩ => show win1_1.index t (0 : Fin 2) * 256 + 1 * k.val = k.val; omega
  | ⟨1, _⟩ => show win1_1.index t (1 : Fin 2) * 3200 + 1 * u.val = v.val; omega

/-- Entry u of the point's bias block is entry (column block · 3200 + u) of the bias row. -/
theorem read_bias (c : Dev nD) (t : Fin cfg1.N) (u : Fin 3200) (v : Fin 32000)
    (hv : v.val = win1_3.index t (1 : Fin 2) * 3200 + u.val) :
    iblk1 V c 2 t (ix2 (0 : Fin 1) u) = V c main_v12 (ix2 (0 : Fin 1) v) := by
  obtain ⟨-, -, -, -, e4, e5, -, -⟩ := idx_facts t
  unfold iblk1
  rw [View.read_apply]
  show V c main_v12 _ = V c main_v12 _
  refine congrArg _ (funext fun a => Fin.ext ?_)
  match a with
  | ⟨0, _⟩ => show win1_2.index t (0 : Fin 2) * 1 + 1 * 0 = 0; omega
  | ⟨1, _⟩ => show win1_2.index t (1 : Fin 2) * 3200 + 1 * u.val = v.val; omega

/-- What a point writes back is its block of the scores of the three whole arrays. -/
theorem written_back (c : Dev nD) (t : Fin cfg1.N) :
    (dat1 (F := Ideal) V c).flushed 3 t
      = ((cfg1.win 3).blk t).view.read (Elt Ideal) (Cert.GruStep.logits (V c main_v13) (V c main_v11) (V c main_v12)) := by
  show (cfg1.win 3).cut (grid1.coords t) ((dat1 V c).after 3 t) = _
  rw [after1_3]
  unfold out1_3
  rw [View.canon_unit_zero hz]
  simp only [View.ld_unit_zero (S := S512x256) hz, View.ld_unit_zero (S := S256x3200) hz, View.ld_unit_zero (S := S1x3200) hz]
  obtain ⟨-, -, -, -, -, -, e6, e7⟩ := idx_facts t
  funext y
  obtain ⟨q, u, rfl⟩ : ∃ (q : Fin 512) (u : Fin 3200), y = ix2 q u := ⟨y 0, y 1, eq_ix2 y⟩
  have hq := q.isLt
  have hu := u.isLt
  let p : Fin 8192 := ⟨win1_3.index t (0 : Fin 2) * 512 + q.val, by omega⟩
  let v : Fin 32000 := ⟨win1_3.index t (1 : Fin 2) * 3200 + u.val, by omega⟩
  show k1_pay1 (iblk1 V c 0 t) (iblk1 V c 1 t) (iblk1 V c 2 t) (ix2 q u)
      = Cert.GruStep.logits (V c main_v13) (V c main_v11) (V c main_v12) (((cfg1.win 3).blk t).view.emb (ix2 q u))
  refine (score_block (iblk1 V c 0 t) (iblk1 V c 1 t) (iblk1 V c 2 t) q u).trans ?_
  rw [logits_at (V c main_v13) (V c main_v11) (V c main_v12) (((cfg1.win 3).blk t).view.emb (ix2 q u)) p v
    (by show win1_3.index t (0 : Fin 2) * 512 + 1 * q.val = win1_3.index t (0 : Fin 2) * 512 + q.val; omega)
    (by show win1_3.index t (1 : Fin 2) * 3200 + 1 * u.val = win1_3.index t (1 : Fin 2) * 3200 + u.val; omega)]
  unfold Cert.GruStep.logitsAt
  rw [read_bias V c t u v rfl]
  refine congrArg (· + _) (Finset.sum_congr rfl fun k _ => ?_)
  rw [read_state V c t q k p rfl, read_weight V c t k u v rfl]

/-- An index of the score array is in a point's block iff each coordinate is in the block's range on its axis. -/
theorem mem_blk (t : Fin cfg1.N) (i : S8192x32000.Idx) :
    i ∈ ((cfg1.win 3).blk t).view.set ↔ ∀ a : Fin 2, win1_3.index t a * S512x3200.size a ≤ (i a).val ∧ (i a).val < win1_3.index t a * S512x3200.size a + S512x3200.size a := by
  show i ∈ ((View.whole main_v14).slice (win1_3.rect t)).set ↔ _
  rw [View.set_slice_whole, Rect.mem_set_unit]
  exact Iff.rfl

/-- The blocks tile the array: row r lies in row block r / 512, class v in column block v / 3200. -/
theorem cover (i : S8192x32000.Idx) :
    ∃ t : Fin cfg1.N, (cfg1.win 3).flush t = true ∧ i ∈ ((cfg1.win 3).blk t).view.set := by
  have hi0 : (i 0).val < 8192 := (i 0).isLt
  have hi1 : (i 1).val < 32000 := (i 1).isLt
  obtain ⟨t, ht⟩ := idx_onto ⟨(i 0).val / 512, by omega⟩ ⟨(i 1).val / 3200, by omega⟩
  have q0 : win1_3.index t (0 : Fin 2) = (i 0).val / 512 := congrFun ht 0
  have q1 : win1_3.index t (1 : Fin 2) = (i 1).val / 3200 := congrFun ht 1
  refine ⟨t, flush1_3 t, ?_⟩
  rw [mem_blk]
  intro a
  match a with
  | ⟨0, _⟩ => show win1_3.index t (0 : Fin 2) * 512 ≤ (i 0).val ∧ (i 0).val < win1_3.index t (0 : Fin 2) * 512 + 512; omega
  | ⟨1, _⟩ => show win1_3.index t (1 : Fin 2) * 3200 ≤ (i 1).val ∧ (i 1).val < win1_3.index t (1 : Fin 2) * 3200 + 3200; omega

/-- After the read-out region the score array holds the scores of every row and class, computed from the arrays the
    region finds: the state, the transposed class weights and the bias row. -/
theorem array (c : Dev nD) :
    (dat1 (F := Ideal) V c).arrAt 3 cfg1.N
      = Cert.GruStep.logits (V c main_v13) (V c main_v11) (V c main_v12) :=
  (dat1 V c).arrAt_eq_of_cover 3 (Cert.GruStep.logits (V c main_v13) (V c main_v11) (V c main_v12))
    (fun t _ => written_back V c t) cover

end Cert.KernelIdeal.Scores

end
-- ==== Proof.KernelValue.lean ====
import proofs.«121658_j71777493451434_1_alg».proof.Proof.Gen.KernelIdeal.Frame
import proofs.«121658_j71777493451434_1_alg».proof.Proof.Spec
import proofs.«121658_j71777493451434_1_alg».proof.Proof.HiddenArray
import proofs.«121658_j71777493451434_1_alg».proof.Proof.ScoresArray
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen

variable (m : (ℓ : Loc nD τ sig) → Buf (Elt Ideal) ℓ) (ρ : Dev nD → PrngReg)

/-- The rows the token ids select from the embedding table: negative ids wrapped by the table's height, then the
    host's gather. Both programs compute it with the same operations; it is carried whole. -/
abbrev gathered (a0 : (⟨S64x128, .i32⟩ : BufTy).Contents (Elt Ideal)) (a1 : (⟨S32000x256, .f32⟩ : BufTy).Contents (Elt Ideal)) :
    (⟨S64x128x256, .f32⟩ : BufTy).Contents (Elt Ideal) :=
  Host.gather gather_S32000x256_S64x128x1_S64x128x256_2_0_n_n_0_2_1256 a1
    (broadcastInDim S64x128x1 ![0, 1] bcast_S64x128_S64x128x1_0_1
      (select (cmpi .slt a0 (broadcastInDim S64x128 ![] bcast_S_S64x128 (constantI S_ 32 0#32)))
        (addi a0 (broadcastInDim S64x128 ![] bcast_S_S64x128 (constantI S_ 32 32000#32))) a0))

/-! ## The re-layings as index maps -/

/-- A [64, 128, 256] batch cast to [8192, 256] is the batch flattened row-major: row r reads batch entry
    (r / 128, r % 128). -/
theorem cast_flat (X3 : Cert.GruStep.Arr3 64 128 256) (h : S64x128x256.ShapeCasts S8192x256) :
    shapeCast S8192x256 X3 h = Cert.GruStep.flat X3 := by
  funext i
  unfold Cert.GruStep.flat
  refine shapeCast_apply X3 h i _ ?_
  rw [Shape.rowMajor_val_three, Shape.rowMajor_val_two]
  show ((i 0).val / 128 * 128 + (i 0).val % 128) * 256 + (i 1).val = (i 0).val * 256 + (i 1).val
  omega

/-- A matrix transposed and then narrowed (narrowing changes nothing over the extended reals) is the transposed
    matrix. -/
theorem narrow_transpose {a b : Nat} (A : Cert.GruStep.Arr2 a b)
    (h : (⟨2, ![a, b]⟩ : Shape).Transposes [1, 0] ⟨2, ![b, a]⟩) (hb : FTy.bf16.bits < FTy.f32.bits) :
    (truncf .bf16 (transpose (⟨2, ![b, a]⟩ : Shape) [1, 0] A h : FVec Ideal ⟨2, ![b, a]⟩ .f32) hb : FVec Ideal ⟨2, ![b, a]⟩ .bf16)
      = Cert.GruStep.tr A := by
  funext i
  rw [ValueIdx.eq_ix2 i]
  exact transpose_ix2_apply A h (i 0) (i 1)

/-- A vector cast to a one-row matrix. -/
theorem cast_row {n : Nat} (v : Cert.GruStep.Arr1 n) (h : (⟨1, ![n]⟩ : Shape).ShapeCasts ⟨2, ![1, n]⟩) :
    shapeCast (⟨2, ![1, n]⟩ : Shape) v h = Cert.GruStep.row v := by
  funext i
  rw [ValueIdx.eq_ix2 i]
  exact shapeCast_a_1a_apply v h (i 0) (i 1)

/-- An [8192, 32000] array cast to [64, 128, 32000] reads, at (b, t, v), row b · 128 + t. -/
theorem cast_batch (L : Cert.GruStep.Arr2 8192 32000) (h : S8192x32000.ShapeCasts S64x128x32000) (i : S64x128x32000.Idx) :
    shapeCast S64x128x32000 L h i = L (ix2 (Cert.GruStep.rowOf (i 0) (i 1)) (i 2)) := by
  refine shapeCast_apply L h i _ ?_
  rw [Shape.rowMajor_val_three, Shape.rowMajor_val_two]
  rfl

/-- The scores of the flattened batch, re-laid on the [64, 128] batch, are the specification's result: entry (b, t, v)
    is class v's score on row b · 128 + t. -/
theorem cast_scores (X3 : Cert.GruStep.Arr3 64 128 256) (W : Cert.GruStep.Arr2 768 256) (bi bh : Cert.GruStep.Arr1 768)
    (C : Cert.GruStep.Arr2 32000 256) (d : Cert.GruStep.Arr1 32000) (h : S8192x32000.ShapeCasts S64x128x32000) :
    shapeCast S64x128x32000
        (Cert.GruStep.logits (Cert.GruStep.hidden (Cert.GruStep.flat X3) (Cert.GruStep.tr W) bi bh) (Cert.GruStep.tr C)
          (Cert.GruStep.row d)) h
      = Cert.GruStep.result X3 W bi bh C d := by
  funext i
  rw [cast_batch]
  rfl

/-! ## The buffers at the segment boundaries -/

/-- The last host operation re-lays the scores on the [64, 128] batch. -/
theorem last_cast (c : Dev nD) :
    W4 m ρ c (Proc.devRef .tc main_v15)
      = shapeCast S64x128x32000 (W3 m ρ c (Proc.devRef .tc main_v14)) shapeCasts_S8192x32000_S64x128x32000 := by
  show StableHlo.after hostOps2 (W3 m ρ c) (Proc.devRef .tc main_v15) = _
  after_results
  rfl

/-- What the first region finds in the flattened-input array: the gathered rows, re-laid. -/
theorem entry_inputs (c : Dev nD) :
    (V1 m ρ c main_v7 : S8192x256.Idx → EReal)
      = shapeCast S8192x256 (gathered (m ((c.tc : Thread nD τ).loc main_arg0)) (m ((c.tc : Thread nD τ).loc main_arg1)))
          shapeCasts_S64x128x256_S8192x256 := by
  show StableHlo.after hostOps0 (W0 m ρ c) (Proc.devRef .tc main_v7) = _
  after_results
  rfl

/-- The input weights, as the first region finds them: transposed, then narrowed. -/
theorem entry_input_weights (c : Dev nD) :
    (V1 m ρ c main_v9 : S256x768.Idx → EReal)
      = (truncf .bf16 (transpose S256x768 [1, 0] (m ((c.tc : Thread nD τ).loc main_arg2)) transposes_S768x256_S256x768_1_0
          : FVec Ideal S256x768 .f32) bitsLt_bf16_f32 : FVec Ideal S256x768 .bf16) := by
  show StableHlo.after hostOps0 (W0 m ρ c) (Proc.devRef .tc main_v9) = _
  after_results

/-- The class weights, as the second region finds them: transposed, then narrowed. -/
theorem entry_class_weights (c : Dev nD) :
    (V1 m ρ c main_v11 : S256x32000.Idx → EReal)
      = (truncf .bf16 (transpose S256x32000 [1, 0] (m ((c.tc : Thread nD τ).loc main_arg5)) transposes_S32000x256_S256x32000_1_0
          : FVec Ideal S256x32000 .f32) bitsLt_bf16_f32 : FVec Ideal S256x32000 .bf16) := by
  show StableHlo.after hostOps0 (W0 m ρ c) (Proc.devRef .tc main_v11) = _
  after_results

/-- The class bias, as the second region finds it: a one-row matrix. -/
theorem entry_class_bias (c : Dev nD) :
    (V1 m ρ c main_v12 : S1x32000.Idx → EReal)
      = shapeCast S1x32000 (m ((c.tc : Thread nD τ).loc main_arg6)) shapeCasts_S32000_S1x32000 := by
  show StableHlo.after hostOps0 (W0 m ρ c) (Proc.devRef .tc main_v12) = _
  after_results
  rfl

/-- No host operation writes the input bias. -/
theorem entry_input_bias (c : Dev nD) :
    (V1 m ρ c main_arg3 : S768.Idx → EReal) = m ((c.tc : Thread nD τ).loc main_arg3) := by
  show StableHlo.after hostOps0 (W0 m ρ c) (Proc.devRef .tc main_arg3) = _
  after_results

/-- No host operation writes the recurrent bias. -/
theorem entry_recurrent_bias (c : Dev nD) :
    (V1 m ρ c main_arg4 : S768.Idx → EReal) = m ((c.tc : Thread nD τ).loc main_arg4) := by
  show StableHlo.after hostOps0 (W0 m ρ c) (Proc.devRef .tc main_arg4) = _
  after_results

/-- The first region leaves the new state in its output array. -/
theorem state_array (c : Dev nD) :
    (V2 m ρ c main_v13 : S8192x256.Idx → EReal)
      = Cert.GruStep.hidden (V1 m ρ c main_v7) (V1 m ρ c main_v9) (V1 m ρ c main_arg3) (V1 m ρ c main_arg4) :=
  (W2_arr m ρ c 4).trans (Cert.KernelIdeal.Hidden.array (V1 m ρ) c)

/-- The first region does not touch the class weights. -/
theorem class_weights_kept (c : Dev nD) : V2 m ρ c main_v11 = V1 m ρ c main_v11 := W2_of_ne m ρ c main_v11 (by decide)

/-- The first region does not touch the class bias. -/
theorem class_bias_kept (c : Dev nD) : V2 m ρ c main_v12 = V1 m ρ c main_v12 := W2_of_ne m ρ c main_v12 (by decide)

/-- The second region leaves the scores in its output array. -/
theorem scores_array (c : Dev nD) :
    (W3 m ρ c (Proc.devRef .tc main_v14) : S8192x32000.Idx → EReal)
      = Cert.GruStep.logits (V2 m ρ c main_v13) (V2 m ρ c main_v11) (V2 m ρ c main_v12) :=
  (W3_arr m ρ c 3).trans (Cert.KernelIdeal.Scores.array (V2 m ρ) c)

/-- What the result buffer holds when @main returns, as the specification of the launch arguments. -/
theorem out_value (c : Dev nD) :
    W4 m ρ c (Proc.devRef .tc main_v15)
      = Cert.GruStep.result (gathered (m ((c.tc : Thread nD τ).loc main_arg0)) (m ((c.tc : Thread nD τ).loc main_arg1)))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) := by
  rw [last_cast m ρ c, scores_array m ρ c, state_array m ρ c, class_weights_kept m ρ c, class_bias_kept m ρ c,
    entry_inputs m ρ c, entry_input_weights m ρ c, entry_input_bias m ρ c, entry_recurrent_bias m ρ c,
    entry_class_weights m ρ c, entry_class_bias m ρ c,
    cast_flat, narrow_transpose, narrow_transpose, cast_row]
  exact cast_scores _ _ _ _ _ _ _

end Cert.KernelIdeal.KValue

end
-- ==== Proof.RefIsSpec.lean ====
import proofs.«121658_j71777493451434_1_alg».proof.Proof.Gen.ReferenceIdeal.Read
import proofs.«121658_j71777493451434_1_alg».proof.Proof.Spec
import Idealize.ShloMosaic.Lib.ValueIdx
import Idealize.ShloMosaic.PureOps.Ideal.Laws

noncomputable section

open Idealize.ShloMosaic Idealize.ShloMosaic.TcCoe Idealize.SL.Sem Idealize.ShloMosaic.ValueIdx

namespace Cert.ReferenceIdeal.RefValue

open Cert.ReferenceIdeal Cert.ReferenceIdeal.Read

/-- The word of the literal 1.0 denotes the number one. -/
theorem word_one : Ideal.ofBits .f32 0x3F800000#32 = (1 : EReal) := by
  simp [Ideal.ofBits, Ideal.ieee, -EReal.coe_mul]; norm_num

/-- One over one plus the exponential of the negation is the logistic function. -/
theorem spelled_logistic (z : EReal) :
    Ideal.div (Ideal.ofBits .f32 0x3F800000#32) (Ideal.ofBits .f32 0x3F800000#32 + Ideal.exp (-z))
      = Ideal.logistic z := by
  rw [word_one]; rfl

/-- The gate pre-activations: entry (b, t, g) of the batched product plus the input bias is the specification's
    gate g on row b · 128 + t of the flattened batch. -/
theorem gate_at (a0 : (⟨S64x128, .i32⟩ : BufTy).Contents (Elt Ideal)) (a1 : (⟨S32000x256, .f32⟩ : BufTy).Contents (Elt Ideal))
    (a2 : (⟨S768x256, .f32⟩ : BufTy).Contents (Elt Ideal)) (a3 : (⟨S768, .f32⟩ : BufTy).Contents (Elt Ideal))
    (b : Fin 64) (t : Fin 128) (g : Fin 768) :
    val_main_v10 (F := Ideal) a0 a1 a2 a3 (ix3 b t g)
      = Cert.GruStep.gate (Cert.GruStep.flat (val_main_v6 (F := Ideal) a0 a1)) (Cert.GruStep.tr a2) a3
          (Cert.GruStep.rowOf b t) g := by
  rw [val_main_v10_apply, val_main_v7_apply, val_main_v9_apply, val_main_v8_apply]
  generalize val_main_v6 (F := Ideal) a0 a1 = X3
  unfold Cert.GruStep.gate
  rw [Ideal.addf_def]
  congr 1
  · refine Finset.sum_congr rfl fun e _ => ?_
    rw [Cert.GruStep.flat_rowOf, Cert.GruStep.tr_ix2]
    have hl : lidx_main_v7 (ix3 b t g) e = ix3 b t e := funext fun a => by
      match a with
      | ⟨0, _⟩ => rfl
      | ⟨1, _⟩ => rfl
      | ⟨2, _⟩ => rfl
    have hr : ridx_main_v7 (ix3 b t g) e = ix2 g e := funext fun a => by
      match a with
      | ⟨0, _⟩ => rfl
      | ⟨1, _⟩ => rfl
    rw [hl, hr]
  · refine congrArg a3 (funext fun a => ?_)
    match a with
    | ⟨0, _⟩ => rfl

/-- The three column slices read the gate array at the reset, update and candidate columns. -/
theorem slice_reset (b : Fin 64) (t : Fin 128) (j : Fin 256) :
    idx_main_v11 (ix3 b t j) = ix3 b t (Cert.GruStep.colR j) := funext fun a => by
  match a with
  | ⟨0, _⟩ => rfl
  | ⟨1, _⟩ => rfl
  | ⟨2, _⟩ => rfl

theorem slice_update (b : Fin 64) (t : Fin 128) (j : Fin 256) :
    idx_main_v12 (ix3 b t j) = ix3 b t (Cert.GruStep.colZ j) := funext fun a => by
  match a with
  | ⟨0, _⟩ => rfl
  | ⟨1, _⟩ => rfl
  | ⟨2, _⟩ => rfl

theorem slice_cand (b : Fin 64) (t : Fin 128) (j : Fin 256) :
    idx_main_v13 (ix3 b t j) = ix3 b t (Cert.GruStep.colN j) := funext fun a => by
  match a with
  | ⟨0, _⟩ => rfl
  | ⟨1, _⟩ => rfl
  | ⟨2, _⟩ => rfl

/-- The recurrent bias, sliced and spread over the batch, read at (b, t, j): its reset, update and candidate entries. -/
theorem bias_reset (a4 : (⟨S768, .f32⟩ : BufTy).Contents (Elt Ideal)) (b : Fin 64) (t : Fin 128) (j : Fin 256) :
    val_main_v18 (F := Ideal) a4 (ix3 b t j) = a4 (ix1 (Cert.GruStep.colR j)) := by
  rw [val_main_v18_apply, val_main_v17_apply, val_main_v14_apply]
  refine congrArg a4 (funext fun a => ?_)
  match a with
  | ⟨0, _⟩ => rfl

theorem bias_update (a4 : (⟨S768, .f32⟩ : BufTy).Contents (Elt Ideal)) (b : Fin 64) (t : Fin 128) (j : Fin 256) :
    val_main_v27 (F := Ideal) a4 (ix3 b t j) = a4 (ix1 (Cert.GruStep.colZ j)) := by
  rw [val_main_v27_apply, val_main_v26_apply, val_main_v15_apply]
  refine congrArg a4 (funext fun a => ?_)
  match a with
  | ⟨0, _⟩ => rfl

theorem bias_cand (a4 : (⟨S768, .f32⟩ : BufTy).Contents (Elt Ideal)) (b : Fin 64) (t : Fin 128) (j : Fin 256) :
    val_main_v36 (F := Ideal) a4 (ix3 b t j) = a4 (ix1 (Cert.GruStep.colN j)) := by
  rw [val_main_v36_apply, val_main_v35_apply, val_main_v16_apply]
  refine congrArg a4 (funext fun a => ?_)
  match a with
  | ⟨0, _⟩ => rfl

/-- The reset gate at (b, t, j). -/
theorem reset_at (a0 : (⟨S64x128, .i32⟩ : BufTy).Contents (Elt Ideal)) (a1 : (⟨S32000x256, .f32⟩ : BufTy).Contents (Elt Ideal))
    (a2 : (⟨S768x256, .f32⟩ : BufTy).Contents (Elt Ideal)) (a3 a4 : (⟨S768, .f32⟩ : BufTy).Contents (Elt Ideal))
    (b : Fin 64) (t : Fin 128) (j : Fin 256) :
    val_main_v25 (F := Ideal) a0 a1 a2 a3 a4 (ix3 b t j)
      = Ideal.logistic (Cert.GruStep.gate (Cert.GruStep.flat (val_main_v6 (F := Ideal) a0 a1)) (Cert.GruStep.tr a2) a3
          (Cert.GruStep.rowOf b t) (Cert.GruStep.colR j) + a4 (ix1 (Cert.GruStep.colR j))) := by
  rw [val_main_v25_apply, val_main_v24_apply, val_main_cst_1_apply, val_main_v23_apply, val_main_v22_apply,
    val_main_cst_apply, val_main_v21_apply, val_main_v20_apply, val_main_v19_apply, val_main_v11_apply,
    slice_reset, gate_at, bias_reset]
  exact spelled_logistic _

/-- The update gate at (b, t, j). -/
theorem update_at (a0 : (⟨S64x128, .i32⟩ : BufTy).Contents (Elt Ideal)) (a1 : (⟨S32000x256, .f32⟩ : BufTy).Contents (Elt Ideal))
    (a2 : (⟨S768x256, .f32⟩ : BufTy).Contents (Elt Ideal)) (a3 a4 : (⟨S768, .f32⟩ : BufTy).Contents (Elt Ideal))
    (b : Fin 64) (t : Fin 128) (j : Fin 256) :
    val_main_v34 (F := Ideal) a0 a1 a2 a3 a4 (ix3 b t j)
      = Ideal.logistic (Cert.GruStep.gate (Cert.GruStep.flat (val_main_v6 (F := Ideal) a0 a1)) (Cert.GruStep.tr a2) a3
          (Cert.GruStep.rowOf b t) (Cert.GruStep.colZ j) + a4 (ix1 (Cert.GruStep.colZ j))) := by
  rw [val_main_v34_apply, val_main_v33_apply, val_main_cst_3_apply, val_main_v32_apply, val_main_v31_apply,
    val_main_cst_2_apply, val_main_v30_apply, val_main_v29_apply, val_main_v28_apply, val_main_v12_apply,
    slice_update, gate_at, bias_update]
  exact spelled_logistic _

/-- The new state at (b, t, j) is the specification's unit j on row b · 128 + t. -/
theorem hidden_at (a0 : (⟨S64x128, .i32⟩ : BufTy).Contents (Elt Ideal)) (a1 : (⟨S32000x256, .f32⟩ : BufTy).Contents (Elt Ideal))
    (a2 : (⟨S768x256, .f32⟩ : BufTy).Contents (Elt Ideal)) (a3 a4 : (⟨S768, .f32⟩ : BufTy).Contents (Elt Ideal))
    (b : Fin 64) (t : Fin 128) (j : Fin 256) :
    val_main_v42 (F := Ideal) a0 a1 a2 a3 a4 (ix3 b t j)
      = Cert.GruStep.hiddenAt (Cert.GruStep.flat (val_main_v6 (F := Ideal) a0 a1)) (Cert.GruStep.tr a2) a3 a4
          (Cert.GruStep.rowOf b t) j := by
  rw [val_main_v42_apply, val_main_v41_apply, val_main_v40_apply, val_main_cst_4_apply, update_at,
    val_main_v39_apply, val_main_v38_apply, val_main_v13_apply, slice_cand, gate_at,
    val_main_v37_apply, reset_at, bias_cand]
  rfl

/-- The reference's result, as a function of its seven arguments, is the specification applied to the rows its
    gather selects. -/
theorem ref_is_result (a0 : (⟨S64x128, .i32⟩ : BufTy).Contents (Elt Ideal)) (a1 : (⟨S32000x256, .f32⟩ : BufTy).Contents (Elt Ideal))
    (a2 : (⟨S768x256, .f32⟩ : BufTy).Contents (Elt Ideal)) (a3 a4 : (⟨S768, .f32⟩ : BufTy).Contents (Elt Ideal))
    (a5 : (⟨S32000x256, .f32⟩ : BufTy).Contents (Elt Ideal)) (a6 : (⟨S32000, .f32⟩ : BufTy).Contents (Elt Ideal)) :
    val_main_v46 (F := Ideal) a0 a1 a2 a3 a4 a5 a6
      = Cert.GruStep.result (val_main_v6 (F := Ideal) a0 a1) a2 a3 a4 a5 a6 := by
  funext i
  obtain ⟨b, t, v, rfl⟩ : ∃ (b : Fin 64) (t : Fin 128) (v : Fin 32000), i = ix3 b t v :=
    ⟨i 0, i 1, i 2, eq_ix3 i⟩
  rw [val_main_v46_apply, val_main_v43_apply, val_main_v45_apply, val_main_v44_apply, Ideal.addf_def]
  show _ = Cert.GruStep.logitsAt _ (Cert.GruStep.tr a5) (Cert.GruStep.row a6) (Cert.GruStep.rowOf b t) v
  unfold Cert.GruStep.logitsAt
  congr 1
  · -- the contraction over the 256 state units, term by term
    refine Finset.sum_congr rfl fun k _ => ?_
    have hl : lidx_main_v43 (ix3 b t v) k = ix3 b t k := funext fun a => by
      match a with
      | ⟨0, _⟩ => rfl
      | ⟨1, _⟩ => rfl
      | ⟨2, _⟩ => rfl
    have hr : ridx_main_v43 (ix3 b t v) k = ix2 v k := funext fun a => by
      match a with
      | ⟨0, _⟩ => rfl
      | ⟨1, _⟩ => rfl
    rw [hl, hr, hidden_at, Cert.GruStep.hidden_ix2, Cert.GruStep.tr_ix2]
  · -- the class bias, spread over the batch
    rw [Cert.GruStep.row_ix2]
    refine congrArg a6 (funext fun a => ?_)
    match a with
    | ⟨0, _⟩ => rfl

end Cert.ReferenceIdeal.RefValue

end
-- ==== Proof.lean ====
/-
  The kernel computes, for every token of a [64, 128] batch, one step of a gated recurrent cell from the zero state and
  the scores of 32000 classes; the reference computes the same with two batched products. Over the extended reals the
  two are one function of the arguments.

  Both programs first select rows of the embedding table by the token ids (ids below zero wrapped by the table's
  height), with the same operations: that array is carried whole and never opened. From there, for row p = b · 128 + t
  and gate column g,

      gate p g = ∑ₑ x[p, e] · W[g, e] + b_i[g],
      r = σ(gate p j + b_h[j]),  z = σ(gate p (256 + j) + b_h[256 + j]),  n = tanh(gate p (512 + j) + r · b_h[512 + j]),
      h[p, j] = (1 − z) · n,      score[p, v] = ∑ₖ h[p, k] · C[v, k] + d[v].

  The kernel reaches these through two grids: the first walks the rows in blocks of 1024 and keeps the whole transposed
  weight matrix and both biases resident, the second walks the score array in 512 × 3200 blocks; its changes of float
  format are the identity here, its matrix products into a zero accumulator are the plain sums, and its logistic
  function is by definition the quotient 1 / (1 + e^(−x)) the reference spells out. Sums and products are met in the
  same order on both sides, so no law beyond unfolding is used and the precondition is never opened.

  The pieces: `Spec` states the function; `HiddenArray` and `ScoresArray` read what each grid leaves in its output
  array, block by block, as that function of the arrays the grid finds; `RunValue` is the program's run with the result
  buffer named; `KernelValue` follows the arrays through the host operations between the launch and the return;
  `RefIsSpec` reads the reference's run index by index.
-/
import proofs.«121658_j71777493451434_1_alg».proof.Defs
import proofs.«121658_j71777493451434_1_alg».proof.Proof.Gen.Kernel
import proofs.«121658_j71777493451434_1_alg».proof.Proof.Gen.Kernel.Skeleton
import proofs.«121658_j71777493451434_1_alg».proof.Proof.Gen.Kernel.Launch
import proofs.«121658_j71777493451434_1_alg».proof.Proof.Gen.Kernel.Points
import proofs.«121658_j71777493451434_1_alg».proof.Proof.Gen.Kernel.Frame
import proofs.«121658_j71777493451434_1_alg».proof.Proof.Gen.KernelIdeal
import proofs.«121658_j71777493451434_1_alg».proof.Proof.Gen.KernelIdeal.Skeleton
import proofs.«121658_j71777493451434_1_alg».proof.Proof.Gen.KernelIdeal.Launch
import proofs.«121658_j71777493451434_1_alg».proof.Proof.Gen.KernelIdeal.Points
import proofs.«121658_j71777493451434_1_alg».proof.Proof.Gen.KernelIdeal.Frame
import proofs.«121658_j71777493451434_1_alg».proof.Proof.Gen.ReferenceIdeal
import proofs.«121658_j71777493451434_1_alg».proof.Proof.Gen.Pre_finite_inputs
import proofs.«121658_j71777493451434_1_alg».proof.Proof.Gen.ReferenceIdeal.Run
import proofs.«121658_j71777493451434_1_alg».proof.Proof.Gen.ReferenceIdeal.Read
import proofs.«121658_j71777493451434_1_alg».proof.Proof.Spec
import proofs.«121658_j71777493451434_1_alg».proof.Proof.RunValue
import proofs.«121658_j71777493451434_1_alg».proof.Proof.KernelValue
import proofs.«121658_j71777493451434_1_alg».proof.Proof.RefIsSpec
import Idealize.ShloMosaic.Adequacy
import Idealize.ShloMosaic.Init

noncomputable section

namespace Cert.Proof

open Idealize.ShloMosaic Idealize.ShloMosaic.TcCoe Idealize.SL.Sem

/-- The rows the token ids select are one array in both programs: the same wrap-around and the same gather. -/
theorem gathered_eq (a0 : (⟨Cert.ReferenceIdeal.S64x128, .i32⟩ : BufTy).Contents (Elt Ideal))
    (a1 : (⟨Cert.ReferenceIdeal.S32000x256, .f32⟩ : BufTy).Contents (Elt Ideal)) :
    Cert.ReferenceIdeal.Read.val_main_v6 (F := Ideal) a0 a1 = Cert.KernelIdeal.KValue.gathered a0 a1 := rfl

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the specification of the arguments in their
    result buffers: the kernel's by its run and the arrays followed through it, the reference's by its run read index
    by index. -/
theorem algebraic : Cert.algebraic_KernelIdeal_ReferenceIdeal := by
  intro m ρ m' ρ' _ hagree
  refine ⟨fun c => Cert.KernelIdeal.Gen.W4 m ρ c (Proc.devRef .tc Cert.KernelIdeal.main_v15),
    Cert.KernelIdeal.RunValue.run_value (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v46_eq, Cert.ReferenceIdeal.RefValue.ref_is_result, gathered_eq,
    (hagree c).1, (hagree c).2.1, (hagree c).2.2.1, (hagree c).2.2.2.1, (hagree c).2.2.2.2.1, (hagree c).2.2.2.2.2.1,
    (hagree c).2.2.2.2.2.2]
  exact (Cert.KernelIdeal.KValue.out_value m ρ c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
